-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x10 : Shape := ⟨2, ![50000, 10]⟩
abbrev S10x128 : Shape := ⟨2, ![10, 128]⟩
abbrev S128 : Shape := ⟨1, ![128]⟩
abbrev S128x128 : Shape := ⟨2, ![128, 128]⟩
abbrev S138x1024 : Shape := ⟨2, ![138, 1024]⟩
abbrev S1024 : Shape := ⟨1, ![1024]⟩
abbrev S1024x1 : Shape := ⟨2, ![1024, 1]⟩
abbrev S1 : Shape := ⟨1, ![1]⟩
abbrev S2x600000 : Shape := ⟨2, ![2, 600000]⟩
abbrev S_ : Shape := ⟨0, ![]⟩

class Facts : Prop where
  bcast_S_S50000x10 : S_.BroadcastsInDim S50000x10 (![] : Fin 0 → Fin S50000x10.rank)
  reducesTo_S50000x10_S_d0_1 : S50000x10.ReducesTo [0, 1] S_
  h_S_ : 0 < S_.numel
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S138x1024 : S_.BroadcastsInDim S138x1024 (![] : Fin 0 → Fin S138x1024.rank)
  reducesTo_S138x1024_S_d0_1 : S138x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1024x1 .f32) (main_arg8 : FVec F S1 .f32) (main_v33 : IVec S_ 1) : IVec S_ 1 :=
  let main_v34 : FVec F S1024x1 .f32 := Host.absf main_arg7
  let main_cst_12 : FVec F S_ .f32 := constant S_ .f32 0x7F800000#32
  let main_v35 : FVec F S1024x1 .f32 := broadcastInDim S1024x1 ![] bcast_S_S1024x1 main_cst_12
  let main_v36 : IVec S1024x1 1 := cmpf .olt main_v34 main_v35
  let main_c_13 : IVec S_ 1 := constantI S_ 1 1#1
  let main_v37 : IVec S_ 1 := (fun x v => Host.reduce IntOp.andi x v reducesTo_S1024x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S128 .f32) (main_arg5 : FVec F S138x1024 .f32) (main_arg6 : FVec F S1024 .f32) (main_arg7 : FVec F S1024x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S138x1024 .f32 := Host.absf main_arg5
  let main_cst_8 : FVec F S_ .f32 := constant S_ .f32 0x7F800000#32
  let main_v25 : FVec F S138x1024 .f32 := broadcastInDim S138x1024 ![] bcast_S_S138x1024 main_cst_8
  let main_v26 : IVec S138x1024 1 := cmpf .olt main_v24 main_v25
  let main_c_9 : IVec S_ 1 := constantI S_ 1 1#1
  let main_v27 : IVec S_ 1 := (fun x v => Host.reduce IntOp.andi x v reducesTo_S138x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S50000x10 .f32) (main_arg1 : FVec F S10x128 .f32) (main_arg2 : FVec F S128 .f32) (main_arg3 : FVec F S128x128 .f32) (main_arg4 : FVec F S128 .f32) (main_arg5 : FVec F S138x1024 .f32) (main_arg6 : FVec F S1024 .f32) (main_arg7 : FVec F S1024x1 .f32) (main_arg8 : FVec F S1 .f32) (main_arg9 : IVec S2x600000 32) : IVec S_ 1 :=
  let main_v0 : FVec F S50000x10 .f32 := Host.absf main_arg0
  let main_cst : FVec F S_ .f32 := constant S_ .f32 0x7F800000#32
  let main_v1 : FVec F S50000x10 .f32 := broadcastInDim S50000x10 ![] bcast_S_S50000x10 main_cst
  let main_v2 : IVec S50000x10 1 := cmpf .olt main_v0 main_v1
  let main_c : IVec S_ 1 := constantI S_ 1 1#1
  let main_v3 : IVec S_ 1 := (fun x v => Host.reduce IntOp.andi x v reducesTo_S50000x10_S_d0_1 h_S_) main_v2 main_c
  let main_v4 : FVec F S10x128 .f32 := Host.absf main_arg1
  let main_cst_0 : FVec F S_ .f32 := constant S_ .f32 0x7F800000#32
  let main_v5 : FVec F S10x128 .f32 := broadcastInDim S10x128 ![] bcast_S_S10x128 main_cst_0
  let main_v6 : IVec S10x128 1 := cmpf .olt main_v4 main_v5
  let main_c_1 : IVec S_ 1 := constantI S_ 1 1#1
  let main_v7 : IVec S_ 1 := (fun x v => Host.reduce IntOp.andi x v reducesTo_S10x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_v13 main_v16
-- ==== Kernel.lean ====
abbrev S50000x10 : Shape := ⟨2, ![50000, 10]⟩
abbrev S10x128 : Shape := ⟨2, ![10, 128]⟩
abbrev S128 : Shape := ⟨1, ![128]⟩
abbrev S128x128 : Shape := ⟨2, ![128, 128]⟩
abbrev S138x1024 : Shape := ⟨2, ![138, 1024]⟩
abbrev S1024 : Shape := ⟨1, ![1024]⟩
abbrev S1024x1 : Shape := ⟨2, ![1024, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S50000 : Shape := ⟨1, ![50000]⟩
abbrev S650000 : Shape := ⟨1, ![650000]⟩
abbrev S_ : Shape := ⟨0, ![]⟩
abbrev S650000x1 : Shape := ⟨2, ![650000, 1]⟩
abbrev S1x128 : Shape := ⟨2, ![1, 128]⟩
abbrev S50000x128 : Shape := ⟨2, ![50000, 128]⟩
abbrev S5000x10 : Shape := ⟨2, ![5000, 10]⟩
abbrev S5000x128 : Shape := ⟨2, ![5000, 128]⟩
abbrev S650000x128 : Shape := ⟨2, ![650000, 128]⟩
abbrev S50000x138 : Shape := ⟨2, ![50000, 138]⟩
abbrev S1x1024 : Shape := ⟨2, ![1, 1024]⟩
abbrev S50000x1024 : Shape := ⟨2, ![50000, 1024]⟩
abbrev S2000x138 : Shape := ⟨2, ![2000, 138]⟩
abbrev S2000x1024 : Shape := ⟨2, ![2000, 1024]⟩
abbrev S1x1 : Shape := ⟨2, ![1, 1]⟩
abbrev S50000x1 : Shape := ⟨2, ![50000, 1]⟩
abbrev S2000x1 : Shape := ⟨2, ![2000, 1]⟩

abbrev nBuf : Space → Nat
  | .hbm => 106
  | .vmem => 24
  | .smem => 0
  | _ => 0

abbrev bufTy : (tb : Table) → Fin (tcTables nBuf tb) → BufTy
  | .hbm, ⟨0, _⟩ => ⟨S50000x10, .f32⟩
  | .hbm, ⟨1, _⟩ => ⟨S10x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S138x1024, .f32⟩
  | .hbm, ⟨6, _⟩ => ⟨S1024, .f32⟩
  | .hbm, ⟨7, _⟩ => ⟨S1024x1, .f32⟩
  | .hbm, ⟨8, _⟩ => ⟨S1, .f32⟩
  | .hbm, ⟨9, _⟩ => ⟨S2x600000, .i32⟩
  | .hbm, ⟨10, _⟩ => ⟨S1x600000, .i32⟩
  | .hbm, ⟨11, _⟩ => ⟨S600000, .i32⟩
  | .hbm, ⟨12, _⟩ => ⟨S1x600000, .i32⟩
  | .hbm, ⟨13, _⟩ => ⟨S600000, .i32⟩
  | .hbm, ⟨14, _⟩ => ⟨S50000, .i32⟩
  | .hbm, ⟨15, _⟩ => ⟨S650000, .i32⟩
  | .hbm, ⟨16, _⟩ => ⟨S650000, .i32⟩
  | .hbm, ⟨17, _⟩ => ⟨S_, .f32⟩
  | .hbm, ⟨18, _⟩ => ⟨S650000, .f32⟩
  | .hbm, ⟨19, _⟩ => ⟨S_, .f32⟩
  | .hbm, ⟨20, _⟩ => ⟨S50000, .f32⟩
  | .hbm, ⟨21, _⟩ => ⟨S650000x1, .i32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S650000, .i32⟩
  | .hbm, ⟨26, _⟩ => ⟨S650000, .i1⟩
  | .hbm, ⟨27, _⟩ => ⟨S_, .i32⟩
  | .hbm, ⟨28, _⟩ => ⟨S650000, .i32⟩
  | .hbm, ⟨29, _⟩ => ⟨S650000, .i32⟩
  | .hbm, ⟨30, _⟩ => ⟨S650000, .i32⟩
  | .hbm, ⟨31, _⟩ => ⟨S650000x1, .i32⟩
  | .hbm, ⟨32, _⟩ => ⟨S650000, .f32⟩
  | .hbm, ⟨33, _⟩ => ⟨S_, .i32⟩
  | .hbm, ⟨34, _⟩ => ⟨S650000, .i32⟩
  | .hbm, ⟨35, _⟩ => ⟨S650000, .i1⟩
  | .hbm, ⟨36, _⟩ => ⟨S_, .i32⟩
  | .hbm, ⟨37, _⟩ => ⟨S650000, .i32⟩
  | .hbm, ⟨38, _⟩ => ⟨S650000, .i32⟩
  | .hbm, ⟨39, _⟩ => ⟨S650000, .i32⟩
  | .hbm, ⟨40, _⟩ => ⟨S650000x1, .i32⟩
  | .hbm, ⟨41, _⟩ => ⟨S650000, .f32⟩
  | .hbm, ⟨42, _⟩ => ⟨S650000, .f32⟩
  | .hbm, ⟨43, _⟩ => ⟨S_, .f32⟩
  | .hbm, ⟨44, _⟩ => ⟨S128, .f32⟩
  | .hbm, ⟨45, _⟩ => ⟨S50000x10, .bf16⟩
  | .hbm, ⟨46, _⟩ => ⟨S10x128, .bf16⟩
  | .hbm, ⟨47, _⟩ => ⟨S1x128, .f32⟩
  | .hbm, ⟨48, _⟩ => ⟨S50000x128, .f32⟩
  | .hbm, ⟨49, _⟩ => ⟨S_, .i32⟩
  | .hbm, ⟨50, _⟩ => ⟨S650000, .i32⟩
  | .hbm, ⟨51, _⟩ => ⟨S650000, .i1⟩
  | .hbm, ⟨52, _⟩ => ⟨S_, .i32⟩
  | .hbm, ⟨53, _⟩ => ⟨S650000, .i32⟩
  | .hbm, ⟨54, _⟩ => ⟨S650000, .i32⟩
  | .hbm, ⟨55, _⟩ => ⟨S650000, .i32⟩
  | .hbm, ⟨56, _⟩ => ⟨S650000x1, .i32⟩
  | .hbm, ⟨57, _⟩ => ⟨S650000x128, .f32⟩
  | .hbm, ⟨58, _⟩ => ⟨S650000x1, .f32⟩
  | .hbm, ⟨59, _⟩ => ⟨S650000x128, .f32⟩
  | .hbm, ⟨60, _⟩ => ⟨S650000x128, .f32⟩
  | .hbm, ⟨61, _⟩ => ⟨S_, .f32⟩
  | .hbm, ⟨62, _⟩ => ⟨S50000x128, .f32⟩
  | .hbm, ⟨63, _⟩ => ⟨S650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S50000x128, .f32⟩
  | .hbm, ⟨70, _⟩ => ⟨S50000x128, .f32⟩
  | .hbm, ⟨71, _⟩ => ⟨S50000x128, .bf16⟩
  | .hbm, ⟨72, _⟩ => ⟨S128x128, .bf16⟩
  | .hbm, ⟨73, _⟩ => ⟨S1x128, .f32⟩
  | .hbm, ⟨74, _⟩ => ⟨S50000x128, .f32⟩
  | .hbm, ⟨75, _⟩ => ⟨S_, .i32⟩
  | .hbm, ⟨76, _⟩ => ⟨S650000, .i32⟩
  | .hbm, ⟨77, _⟩ => ⟨S650000, .i1⟩
  | .hbm, ⟨78, _⟩ => ⟨S_, .i32⟩
  | .hbm, ⟨79, _⟩ => ⟨S650000, .i32⟩
  | .hbm, ⟨80, _⟩ => ⟨S650000, .i32⟩
  | .hbm, ⟨81, _⟩ => ⟨S650000, .i32⟩
  | .hbm, ⟨82, _⟩ => ⟨S650000x1, .i32⟩
  | .hbm, ⟨83, _⟩ => ⟨S650000x128, .f32⟩
  | .hbm, ⟨84, _⟩ => ⟨S650000x1, .f32⟩
  | .hbm, ⟨85, _⟩ => ⟨S650000x128, .f32⟩
  | .hbm, ⟨86, _⟩ => ⟨S650000x128, .f32⟩
  | .hbm, ⟨87, _⟩ => ⟨S_, .f32⟩
  | .hbm, ⟨88, _⟩ => ⟨S50000x128, .f32⟩
  | .hbm, ⟨89, _⟩ => ⟨S650000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x138, .f32⟩
  | .hbm, ⟨98, _⟩ => ⟨S50000x138, .bf16⟩
  | .hbm, ⟨99, _⟩ => ⟨S138x1024, .bf16⟩
  | .hbm, ⟨100, _⟩ => ⟨S1x1024, .f32⟩
  | .hbm, ⟨101, _⟩ => ⟨S50000x1024, .f32⟩
  | .hbm, ⟨102, _⟩ => ⟨S50000x1024, .bf16⟩
  | .hbm, ⟨103, _⟩ => ⟨S1024x1, .bf16⟩
  | .hbm, ⟨104, _⟩ => ⟨S1x1, .f32⟩
  | .hbm, ⟨105, _⟩ => ⟨S50000x1, .f32⟩
  | .local _ .vmem, ⟨0, _⟩ => ⟨S5000x10, .bf16⟩
  | .local _ .vmem, ⟨1, _⟩ => ⟨S5000x10, .bf16⟩
  | .local _ .vmem, ⟨2, _⟩ => ⟨S10x128, .bf16⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .bf16⟩
  | .local _ .vmem, ⟨7, _⟩ => ⟨S5000x128, .bf16⟩
  | .local _ .vmem, ⟨8, _⟩ => ⟨S128x128, .bf16⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S2000x138, .bf16⟩
  | .local _ .vmem, ⟨13, _⟩ => ⟨S2000x138, .bf16⟩
  | .local _ .vmem, ⟨14, _⟩ => ⟨S138x1024, .bf16⟩
  | .local _ .vmem, ⟨15, _⟩ => ⟨S1x1024, .f32⟩
  | .local _ .vmem, ⟨16, _⟩ => ⟨S2000x1024, .f32⟩
  | .local _ .vmem, ⟨17, _⟩ => ⟨S2000x1024, .f32⟩
  | .local _ .vmem, ⟨18, _⟩ => ⟨S2000x1024, .bf16⟩
  | .local _ .vmem, ⟨19, _⟩ => ⟨S2000x1024, .bf16⟩
  | .local _ .vmem, ⟨20, _⟩ => ⟨S1024x1, .bf16⟩
  | .local _ .vmem, ⟨21, _⟩ => ⟨S1x1, .f32⟩
  | .local _ .vmem, ⟨22, _⟩ => ⟨S2000x1, .f32⟩
  | .local _ .vmem, ⟨23, _⟩ => ⟨S2000x1, .f32⟩
  | _, _ => ⟨S50000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call0_cst : Ref sig .tc := ⟨.hbm, 68, rfl⟩
abbrev main_call0_v0 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_c_9 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_10 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_call1_cst : Ref sig .tc := ⟨.hbm, 94, rfl⟩
abbrev main_call1_v0 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x138 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S138x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x1 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S_S128 : S_.BroadcastsInDim S128 (![] : Fin 0 → Fin S128.rank)
  bitsLt_bf16_f32 : FTy.bits .bf16 < FTy.bits .f32
  shapeCasts_S128_S1x128 : S128.ShapeCasts S1x128
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  inb_S10x128_S10x128_0_0 : ∀ a, (![0, 0] : Fin 2 → Nat) a + S10x128.size a ≤ S10x128.size a
  h_S10x128 : 0 < S10x128.numel
  shapeCasts_S10x128_S10x128 : S10x128.ShapeCasts S10x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  concatenates_S50000x10_S50000x128_S50000x138_d1 : Shape.Concatenates [S50000x10, S50000x128] S50000x138 1
  shapeCasts_S1024_S1x1024 : S1024.ShapeCasts S1x1024
  inb_S2000x138_S2000x138_0_0 : ∀ a, (![0, 0] : Fin 2 → Nat) a + S2000x138.size a ≤ S2000x138.size a
  h_S2000x138 : 0 < S2000x138.numel
  shapeCasts_S2000x138_S2000x138 : S2000x138.ShapeCasts S2000x138
  inb_S138x1024_S138x1024_0_0 : ∀ a, (![0, 0] : Fin 2 → Nat) a + S138x1024.size a ≤ S138x1024.size a
  h_S138x1024 : 0 < S138x1024.numel
  shapeCasts_S138x1024_S138x1024 : S138x1024.ShapeCasts S138x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2000x1024 : S1x1024.Broadcasts S2000x1024
  inb_S2000x1024_S2000x1024_0_0 : ∀ a, (![0, 0] : Fin 2 → Nat) a + S2000x1024.size a ≤ S2000x1024.size a
  h_S2000x1024 : 0 < S2000x1024.numel
  shapeCasts_S1_S1x1 : S1.ShapeCasts S1x1
  shapeCasts_S2000x1024_S2000x1024 : S2000x1024.ShapeCasts S2000x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x10_S10x128_S5000x128_1_0_0_1_n_n_wf : DotDims.WF S5000x10 S10x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S5000x128_S128x128_S5000x128_1_0_0_1_n_n_wf : DotDims.WF S5000x128 S128x128 S5000x128 [1] [0] [0] [1] [] []
  dot_S2000x138_S138x1024_S2000x1024_1_0_0_1_n_n_wf : DotDims.WF S2000x138 S138x1024 S2000x1024 [1] [0] [0] [1] [] []
  dot_S2000x1024_S1024x1_S2000x1_1_0_0_1_n_n_wf : DotDims.WF S2000x1024 S1024x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S50000x10.size a
  hwx0_0 : ∀ i : grid0.Coords, EltTy.bits .bf16 = 32 ∨ (Rect.block (s := S50000x10) S5000x10.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x128.size a ≤ S10x128.size a
  hwx0_1 : ∀ i : grid0.Coords, EltTy.bits .bf16 = 32 ∨ (Rect.block (s := S10x128) S10x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x138.size a ≤ S50000x138.size a
  hwx2_0 : ∀ i : grid2.Coords, EltTy.bits .bf16 = 32 ∨ (Rect.block (s := S50000x138) S2000x138.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S138x1024.size a ≤ S138x1024.size a
  hwx2_1 : ∀ i : grid2.Coords, EltTy.bits .bf16 = 32 ∨ (Rect.block (s := S138x1024) S138x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1024.size a ≤ S50000x1024.size a
  hwx2_3 : ∀ i : grid2.Coords, EltTy.bits .f32 = 32 ∨ (Rect.block (s := S50000x1024) S2000x1024.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x1024.size a ≤ S50000x1024.size a
  hwx3_0 : ∀ i : grid3.Coords, EltTy.bits .bf16 = 32 ∨ (Rect.block (s := S50000x1024) S2000x1024.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1024x1.size a ≤ S1024x1.size a
  hwx3_1 : ∀ i : grid3.Coords, EltTy.bits .bf16 = 32 ∨ (Rect.block (s := S1024x1) S1024x1.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x1.size a ≤ S50000x1.size a
  hwx3_3 : ∀ i : grid3.Coords, EltTy.bits .f32 = 32 ∨ (Rect.block (s := S50000x1) S2000x1.size (cc3_transform_3 i) (hinb3_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x10_S10x128_S5000x128_1_0_0_1_n_n : DotDims S5000x10 S10x128 S5000x128 where
  lhsContracting := [1]
  rhsContracting := [0]
  lhsNonContracting := [0]
  rhsNonContracting := [1]
  lhsBatch := []
  rhsBatch := []
  wf := dot_S5000x10_S10x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x138_S138x1024_S2000x1024_1_0_0_1_n_n : DotDims S2000x138 S138x1024 S2000x1024 where
  lhsContracting := [1]
  rhsContracting := [0]
  lhsNonContracting := [0]
  rhsNonContracting := [1]
  lhsBatch := []
  rhsBatch := []
  wf := dot_S2000x138_S138x1024_S2000x1024_1_0_0_1_n_n_wf
def dot_S2000x1024_S1024x1_S2000x1_1_0_0_1_n_n : DotDims S2000x1024 S1024x1 S2000x1 where
  lhsContracting := [1]
  rhsContracting := [0]
  lhsNonContracting := [0]
  rhsNonContracting := [1]
  lhsBatch := []
  rhsBatch := []
  wf := dot_S2000x1024_S1024x1_S2000x1_1_0_0_1_n_n_wf

abbrev win0_0 : Pipeline.Window sig grid0 :=
  Pipeline.Window.ofSpec (Memref.whole main_v28) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S10x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v49) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v71) S2000x138.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v72) S138x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v74) S2000x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v75) S2000x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v76) S1024x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v77) S1x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v78) S2000x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x10 : Shape := ⟨2, ![50000, 10]⟩
abbrev S10x128 : Shape := ⟨2, ![10, 128]⟩
abbrev S128 : Shape := ⟨1, ![128]⟩
abbrev S128x128 : Shape := ⟨2, ![128, 128]⟩
abbrev S138x1024 : Shape := ⟨2, ![138, 1024]⟩
abbrev S1024 : Shape := ⟨1, ![1024]⟩
abbrev S1024x1 : Shape := ⟨2, ![1024, 1]⟩
abbrev S1 : Shape := ⟨1, ![1]⟩
abbrev S2x600000 : Shape := ⟨2, ![2, 600000]⟩
abbrev S1x600000 : Shape := ⟨2, ![1, 600000]⟩
abbrev S600000 : Shape := ⟨1, ![600000]⟩
abbrev S50000x128 : Shape := ⟨2, ![50000, 128]⟩
abbrev S50000 : Shape := ⟨1, ![50000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S50000x138 : Shape := ⟨2, ![50000, 138]⟩
abbrev S50000x1024 : Shape := ⟨2, ![50000, 1024]⟩
abbrev S1x1024 : Shape := ⟨2, ![1, 1024]⟩
abbrev S50000x1 : Shape := ⟨2, ![50000, 1]⟩
abbrev S1x1 : Shape := ⟨2, ![1, 1]⟩

abbrev nBuf : Space → Nat
  | .hbm => 138
  | .vmem => 0
  | .smem => 0
  | _ => 0

abbrev hbmTy0_0 (i : Nat) : BufTy := match i % 128 with
  | 0 => ⟨S50000x10, .f32⟩
  | 1 => ⟨S10x128, .f32⟩
  | 2 => ⟨S128, .f32⟩
  | 3 => ⟨S128x128, .f32⟩
  | 4 => ⟨S128, .f32⟩
  | 5 => ⟨S138x1024, .f32⟩
  | 6 => ⟨S1024, .f32⟩
  | 7 => ⟨S1024x1, .f32⟩
  | 8 => ⟨S1, .f32⟩
  | 9 => ⟨S2x600000, .i32⟩
  | 10 => ⟨S1x600000, .i32⟩
  | 11 => ⟨S600000, .i32⟩
  | 12 => ⟨S1x600000, .i32⟩
  | 13 => ⟨S600000, .i32⟩
  | 14 => ⟨S50000x128, .f32⟩
  | 15 => ⟨S50000, .i32⟩
  | 16 => ⟨S650000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S50000, .f32⟩
  | 25 => ⟨S_, .i32⟩
  | 26 => ⟨S650000, .i32⟩
  | 27 => ⟨S650000, .i1⟩
  | 28 => ⟨S_, .i32⟩
  | 29 => ⟨S650000, .i32⟩
  | 30 => ⟨S650000, .i32⟩
  | 31 => ⟨S650000, .i32⟩
  | 32 => ⟨S650000x1, .i32⟩
  | 33 => ⟨S650000, .f32⟩
  | 34 => ⟨S_, .i32⟩
  | 35 => ⟨S650000, .i32⟩
  | 36 => ⟨S650000, .i1⟩
  | 37 => ⟨S_, .i32⟩
  | 38 => ⟨S650000, .i32⟩
  | 39 => ⟨S650000, .i32⟩
  | 40 => ⟨S650000, .i32⟩
  | 41 => ⟨S650000x1, .i32⟩
  | 42 => ⟨S650000, .f32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000x128, .f32⟩
  | 53 => ⟨S650000x1, .f32⟩
  | 54 => ⟨S650000x128, .f32⟩
  | 55 => ⟨S650000x128, .f32⟩
  | 56 => ⟨S_, .f32⟩
  | 57 => ⟨S50000x128, .f32⟩
  | 58 => ⟨S650000x1, .i32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S50000x128, .f32⟩
  | 65 => ⟨S50000x128, .f32⟩
  | 66 => ⟨S50000x128, .f32⟩
  | 67 => ⟨S50000, .i32⟩
  | 68 => ⟨S650000, .i32⟩
  | 69 => ⟨S650000, .i32⟩
  | 70 => ⟨S_, .f32⟩
  | 71 => ⟨S650000, .f32⟩
  | 72 => ⟨S_, .f32⟩
  | 73 => ⟨S50000, .f32⟩
  | 74 => ⟨S650000x1, .i32⟩
  | 75 => ⟨S50000, .f32⟩
  | 76 => ⟨S50000, .f32⟩
  | 77 => ⟨S_, .i32⟩
  | 78 => ⟨S650000, .i32⟩
  | 79 => ⟨S650000, .i1⟩
  | 80 => ⟨S_, .i32⟩
  | 81 => ⟨S650000, .i32⟩
  | 82 => ⟨S650000, .i32⟩
  | 83 => ⟨S650000, .i32⟩
  | 84 => ⟨S650000x1, .i32⟩
  | 85 => ⟨S650000, .f32⟩
  | 86 => ⟨S_, .i32⟩
  | 87 => ⟨S650000, .i32⟩
  | 88 => ⟨S650000, .i1⟩
  | 89 => ⟨S_, .i32⟩
  | 90 => ⟨S650000, .i32⟩
  | 91 => ⟨S650000, .i32⟩
  | 92 => ⟨S650000, .i32⟩
  | 93 => ⟨S650000x1, .i32⟩
  | 94 => ⟨S650000, .f32⟩
  | 95 => ⟨S650000, .f32⟩
  | 96 => ⟨S_, .i32⟩
  | 97 => ⟨S650000, .i32⟩
  | 98 => ⟨S650000, .i1⟩
  | 99 => ⟨S_, .i32⟩
  | 100 => ⟨S650000, .i32⟩
  | 101 => ⟨S650000, .i32⟩
  | 102 => ⟨S650000, .i32⟩
  | 103 => ⟨S650000x1, .i32⟩
  | 104 => ⟨S650000x128, .f32⟩
  | 105 => ⟨S650000x1, .f32⟩
  | 106 => ⟨S650000x128, .f32⟩
  | 107 => ⟨S650000x128, .f32⟩
  | 108 => ⟨S_, .f32⟩
  | 109 => ⟨S50000x128, .f32⟩
  | 110 => ⟨S650000x1, .i32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S50000x138, .f32⟩
  | 119 => ⟨S50000x1024, .f32⟩
  | 120 => ⟨S1x1024, .f32⟩
  | 121 => ⟨S50000x1024, .f32⟩
  | 122 => ⟨S50000x1024, .f32⟩
  | 123 => ⟨S_, .f32⟩
  | 124 => ⟨S50000x1024, .f32⟩
  | 125 => ⟨S50000x1024, .f32⟩
  | 126 => ⟨S50000x1, .f32⟩
  | 127 => ⟨S1x1, .f32⟩
  | _ => ⟨S50000x10, .f32⟩

abbrev hbmTy0_1 (i : Nat) : BufTy := match i % 128 with
  | 0 => ⟨S50000x1, .f32⟩
  | 1 => ⟨S50000x1, .f32⟩
  | 2 => ⟨S50000x1, .f32⟩
  | 3 => ⟨S50000x1, .f32⟩
  | 4 => ⟨S_, .f32⟩
  | 5 => ⟨S50000x1, .f32⟩
  | 6 => ⟨S50000x1, .f32⟩
  | 7 => ⟨S_, .f32⟩
  | 8 => ⟨S50000x1, .f32⟩
  | 9 => ⟨S50000x1, .f32⟩
  | _ => ⟨S50000x10, .f32⟩

abbrev hbmTy (i : Nat) : BufTy := match i / 128 with
  | 0 => hbmTy0_0 i
  | 1 => hbmTy0_1 i
  | _ => ⟨S50000x10, .f32⟩

abbrev bufTy : (tb : Table) → Fin (tcTables nBuf tb) → BufTy
  | .hbm, ⟨i, _⟩ => hbmTy i
  | _, _ => ⟨S50000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_2 : Ref sig .tc := ⟨.hbm, 34, rfl⟩
abbrev main_v20 : Ref sig .tc := ⟨.hbm, 35, rfl⟩
abbrev main_v21 : Ref sig .tc := ⟨.hbm, 36, rfl⟩
abbrev main_c_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_4 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_call0_cst : Ref sig .tc := ⟨.hbm, 63, rfl⟩
abbrev main_call0_v0 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_cst_8 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_9 : Ref sig .tc := ⟨.hbm, 77, rfl⟩
abbrev main_v54 : Ref sig .tc := ⟨.hbm, 78, rfl⟩
abbrev main_v55 : Ref sig .tc := ⟨.hbm, 79, rfl⟩
abbrev main_c_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_call1_cst : Ref sig .tc := ⟨.hbm, 115, rfl⟩
abbrev main_call1_v0 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call2_cst : Ref sig .tc := ⟨.hbm, 123, rfl⟩
abbrev main_call2_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_cst_16 : Ref sig .tc := ⟨.hbm, 132, rfl⟩
abbrev main_v98 : Ref sig .tc := ⟨.hbm, 133, rfl⟩
abbrev main_v99 : Ref sig .tc := ⟨.hbm, 134, rfl⟩
abbrev main_cst_17 : Ref sig .tc := ⟨.hbm, 135, rfl⟩
abbrev main_v100 : Ref sig .tc := ⟨.hbm, 136, rfl⟩
abbrev main_v101 : Ref sig .tc := ⟨.hbm, 137, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  concatenates_S50000x10_S50000x128_S50000x138_d1 : Shape.Concatenates [S50000x10, S50000x128] S50000x138 1
  bcast_S1024_S1x1024_1 : S1024.BroadcastsInDim S1x1024 (![1] : Fin 1 → Fin S1x1024.rank)
  bcast_S1x1024_S50000x1024_0_1 : S1x1024.BroadcastsInDim S50000x1024 (![0, 1] : Fin 2 → Fin S50000x1024.rank)
  bcast_S_S50000x1024 : S_.BroadcastsInDim S50000x1024 (![] : Fin 0 → Fin S50000x1024.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  bcast_S_S50000x1 : S_.BroadcastsInDim S50000x1 (![] : Fin 0 → Fin S50000x1.rank)
  dot_S50000x10_S10x128_S50000x128_1_0_0_1_n_n_wf : DotDims.WF S50000x10 S10x128 S50000x128 [1] [0] [0] [1] [] []
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  dot_S50000x128_S128x128_S50000x128_1_0_0_1_n_n_wf : DotDims.WF S50000x128 S128x128 S50000x128 [1] [0] [0] [1] [] []
  dot_S50000x138_S138x1024_S50000x1024_1_0_0_1_n_n_wf : DotDims.WF S50000x138 S138x1024 S50000x1024 [1] [0] [0] [1] [] []
  dot_S50000x1024_S1024x1_S50000x1_1_0_0_1_n_n_wf : DotDims.WF S50000x1024 S1024x1 S50000x1 [1] [0] [0] [1] [] []

variable [Facts₀]

def dot_S50000x10_S10x128_S50000x128_1_0_0_1_n_n : DotDims S50000x10 S10x128 S50000x128 where
  lhsContracting := [1]
  rhsContracting := [0]
  lhsNonContracting := [0]
  rhsNonContracting := [1]
  lhsBatch := []
  rhsBatch := []
  wf := dot_S50000x10_S10x128_S50000x128_1_0_0_1_n_n_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x138_S138x1024_S50000x1024_1_0_0_1_n_n : DotDims S50000x138 S138x1024 S50000x1024 where
  lhsContracting := [1]
  rhsContracting := [0]
  lhsNonContracting := [0]
  rhsNonContracting := [1]
  lhsBatch := []
  rhsBatch := []
  wf := dot_S50000x138_S138x1024_S50000x1024_1_0_0_1_n_n_wf
def dot_S50000x1024_S1024x1_S50000x1_1_0_0_1_n_n : DotDims S50000x1024 S1024x1 S50000x1 where
  lhsContracting := [1]
  rhsContracting := [0]
  lhsNonContracting := [0]
  rhsNonContracting := [1]
  lhsBatch := []
  rhsBatch := []
  wf := dot_S50000x1024_S1024x1_S50000x1_1_0_0_1_n_n_wf

class Facts : Prop extends Facts₀ where

variable [Facts]
-- ==== Proof.Shared.lean ====
/-
  The graph part of the network, shared by its two layers of message passing: the edge list with one self-loop per node
  appended, the symmetric degree normalisation, and one propagation step
      h  ↦  max (Σ_{edges into a node} norm(edge) · h[source] + b, 0).
  These are the host operations of the program, composed; nothing is opened here. A negative index is wrapped by the number
  of nodes before it is used, as the program does.
-/
import proofs.«124041_j47579647705688_1_alg».proof.Proof.Gen.KernelIdeal

noncomputable section

namespace Cert.KernelIdeal.Shared

open Cert.KernelIdeal Cert.KernelIdeal.Facts₀ Cert.KernelIdeal.Facts Idealize.ShloMosaic Idealize.ShloMosaic.TcCoe

variable {F : FTy → Type} [FloatOps F]

/-- Row `r` of the edge list (0: sources, 1: targets) as a flat vector, with the nodes' own numbers appended: the self-loops. -/
def srcT (e : IVec S2x600000 32) : IVec S650000 32 :=
  concatenate S650000 0 [⟨S600000, shapeCast _ (extractStridedSlice S1x600000 ![0, 0] e slices_S2x600000_S1x600000_0_0) shapeCasts_S1x600000_S600000⟩, ⟨S50000, iotaInDim S50000 32 0⟩] concatenates_S600000_S50000_S650000_d0
def dstT (e : IVec S2x600000 32) : IVec S650000 32 :=
  concatenate S650000 0 [⟨S600000, shapeCast _ (extractStridedSlice S1x600000 ![1, 0] e slices_S2x600000_S1x600000_1_0) shapeCasts_S1x600000_S600000⟩, ⟨S50000, iotaInDim S50000 32 0⟩] concatenates_S600000_S50000_S650000_d0

/-- A negative node number counts from the end. -/
def wrapT (v : IVec S650000 32) : IVec S650000 32 :=
  select (cmpi .slt v (broadcastInDim S650000 ![] bcast_S_S650000 (constantI S_ 32 0#32))) (addi v (broadcastInDim S650000 ![] bcast_S_S650000 (constantI S_ 32 50000#32))) v

/-- The inverse square root of every node's in-degree (self-loop counted). -/
def dinvT (e : IVec S2x600000 32) : FVec F S50000 .f32 :=
  Host.rsqrt (Host.scatterAdd scatter_S50000_S650000x1_S650000_n_0_0_1 (broadcastInDim S50000 ![] bcast_S_S50000 (constant S_ .f32 0x00000000#32)) (broadcastInDim S650000x1 ![0] bcast_S650000_S650000x1_0 (dstT e)) (broadcastInDim S650000 ![] bcast_S_S650000 (constant S_ .f32 0x3F800000#32)))

/-- The weight of every edge: the product of the two endpoints' inverse square-root degrees. -/
def normT (e : IVec S2x600000 32) : FVec F S650000 .f32 :=
  mulf (Host.gather gather_S50000_S650000x1_S650000_n_0_n_n_0_1_1 (dinvT (F := F) e) (broadcastInDim S650000x1 ![0] bcast_S650000_S650000x1_0 (wrapT (srcT e))))
    (Host.gather gather_S50000_S650000x1_S650000_n_0_n_n_0_1_1 (dinvT (F := F) e) (broadcastInDim S650000x1 ![0] bcast_S650000_S650000x1_0 (wrapT (dstT e))))

/-- One propagation step with its bias and rectification. -/
def aggT (e : IVec S2x600000 32) (h : FVec F S50000x128 .f32) (b : FVec F S128 .f32) : FVec F S50000x128 .f32 :=
  maximumf (addf (Host.scatterAdd scatter_S50000x128_S650000x1_S650000x128_1_0_0_1 (broadcastInDim S50000x128 ![] bcast_S_S50000x128 (constant S_ .f32 0x00000000#32)) (broadcastInDim S650000x1 ![0] bcast_S650000_S650000x1_0 (dstT e))
      (mulf (Host.gather gather_S50000x128_S650000x1_S650000x128_1_0_n_n_0_1_1128 h (broadcastInDim S650000x1 ![0] bcast_S650000_S650000x1_0 (wrapT (srcT e)))) (broadcastInDim S650000x128 ![0, 1] bcast_S650000x1_S650000x128_0_1 (broadcastInDim S650000x1 ![0] bcast_S650000_S650000x1_0 (normT (F := F) e)))))
      (broadcastInDim S50000x128 ![0, 1] bcast_S1x128_S50000x128_0_1 (broadcastInDim S1x128 ![1] bcast_S128_S1x128_1 b)))
    (broadcastInDim S50000x128 ![] bcast_S_S50000x128 (constant S_ .f32 0x00000000#32))

end Cert.KernelIdeal.Shared

end
-- ==== Proof.DenseSpec.lean ====
/-
  One dense layer over the extended reals, entry by entry: row r, column q of act (X · W + b), the bias a single row
  broadcast down the rows. The same formula is read at a row block of X (what one grid point of a layer computes) and at
  the whole array (what the layer leaves in its result, and what a matrix product on the host followed by the bias and the
  activation computes).
-/
import Idealize.ShloMosaic.PureOps.Ideal
import Idealize.ShloMosaic.Lib.ValueIdx

noncomputable section

open scoped BigOperators

namespace Cert.Spec

open Idealize.ShloMosaic Idealize.ShloMosaic.ValueIdx

/-- The row coordinate of an entry of an M × N array, as a number below M. -/
abbrev rowOf {M N : Nat} (i : (⟨2, ![M, N]⟩ : Shape).Idx) : Fin M := ⟨(i 0).val, idx2_lt0 i⟩
/-- The column coordinate of an entry of an M × N array, as a number below N. -/
abbrev colOf {M N : Nat} (i : (⟨2, ![M, N]⟩ : Shape).Idx) : Fin N := ⟨(i 1).val, idx2_lt1 i⟩

/-- Entry i = (r, q) of act (X · W + b): the sum over the K inner positions of X(r, k) · W(k, q), plus b(0, q), under the
    activation. No order of summation and no rounding is left in it. -/
def dense (act : EReal → EReal) (M K N : Nat)
    (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun i => act ((∑ k : Fin K, X (ix2 (rowOf i) k) * W (ix2 k (colOf i))) + B (ix2 (0 : Fin 1) (colOf i)))

theorem dense_apply (act : EReal → EReal) (M K N : Nat)
    (X : (⟨2, ![M, K]⟩ : Shape).Idx → EReal) (W : (⟨2, ![K, N]⟩ : Shape).Idx → EReal)
    (B : (⟨2, ![1, N]⟩ : Shape).Idx → EReal) (i : (⟨2, ![M, N]⟩ : Shape).Idx) :
    dense act M K N X W B i
      = act ((∑ k : Fin K, X (ix2 (rowOf i) k) * W (ix2 k (colOf i))) + B (ix2 (0 : Fin 1) (colOf i))) := rfl

/-- The rectified-linear activation on the extended reals. -/
abbrev relu (x : EReal) : EReal := max x 0

end Cert.Spec

end
-- ==== Proof.KValueA.lean ====
/-
  The value the tiled network leaves in its result array, read off the run boundary by boundary. Between two layers the
  program's host operations are composed (never opened): the cast of an operand to the layers' input format, the bias row,
  one propagation step over the graph. Each layer's result array is the dense layer `Cert.Spec.dense` of the three operand
  arrays as the layer finds them (the four hypotheses `hR0` … `hR3`, proved layer by layer elsewhere). The last boundary's
  contents at the result array are then four nested dense layers with the two propagation steps and the concatenation
  between them: `k3`.
-/
import proofs.«124041_j47579647705688_1_alg».proof.Proof.Gen.KernelIdeal.Frame
import proofs.«124041_j47579647705688_1_alg».proof.Proof.Shared
import proofs.«124041_j47579647705688_1_alg».proof.Proof.DenseSpec
import Idealize.ShloMosaic.Lib.StableHlo.Run
import Idealize.ShloMosaic.PureOps.Ideal

set_option maxRecDepth 16384

noncomputable section

namespace Cert.KernelIdeal.KV

open Cert.KernelIdeal Cert.KernelIdeal.Gen Cert.KernelIdeal.Shared
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The values, named -/

/-- The cast of an array to the layers' input format: the identity at the ideal values. -/
abbrev tr {s : Shape} (x : FVec Ideal s .f32) : FVec Ideal s .bf16 := truncf (F := Ideal) .bf16 x bitsLt_bf16_f32

/-- The zero bias row of the two graph layers. -/
def Z : FVec Ideal S1x128 .f32 :=
  shapeCast S1x128 (broadcastInDim S128 ![] bcast_S_S128 (constant (F := Ideal) S_ .f32 0x00000000#32)) shapeCasts_S128_S1x128
/-- Layer 0: x · W1. -/
def k0 (c : Dev nD) : FVec Ideal S50000x128 .f32 :=
  Cert.Spec.dense id 50000 10 128 (tr (s := S50000x10) (m ((c : Thread nD τ).loc main_arg0))) (tr (s := S10x128) (m ((c : Thread nD τ).loc main_arg1))) Z
/-- First propagation step, with b1 and the rectification. -/
def g1 (c : Dev nD) : FVec Ideal S50000x128 .f32 := aggT (m ((c : Thread nD τ).loc main_arg9)) (k0 m c) (m ((c : Thread nD τ).loc main_arg2))
/-- Layer 1: h1 · W2. -/
def k1 (c : Dev nD) : FVec Ideal S50000x128 .f32 :=
  Cert.Spec.dense id 50000 128 128 (tr (s := S50000x128) (g1 m c)) (tr (s := S128x128) (m ((c : Thread nD τ).loc main_arg3))) Z
/-- Second propagation step, with b2 and the rectification. -/
def g2 (c : Dev nD) : FVec Ideal S50000x128 .f32 := aggT (m ((c : Thread nD τ).loc main_arg9)) (k1 m c) (m ((c : Thread nD τ).loc main_arg4))
/-- The input features beside the graph features, column-wise. -/
def cat (c : Dev nD) : FVec Ideal S50000x138 .f32 :=
  concatenate S50000x138 1 [⟨S50000x10, (m ((c : Thread nD τ).loc main_arg0))⟩, ⟨S50000x128, g2 m c⟩] concatenates_S50000x10_S50000x128_S50000x138_d1
/-- Layer 2: max (cat · WL1 + bL1, 0). -/
def k2 (c : Dev nD) : FVec Ideal S50000x1024 .f32 :=
  Cert.Spec.dense Cert.Spec.relu 50000 138 1024 (tr (s := S50000x138) (cat m c)) (tr (s := S138x1024) (m ((c : Thread nD τ).loc main_arg5))) (shapeCast S1x1024 (m ((c : Thread nD τ).loc main_arg6)) shapeCasts_S1024_S1x1024)
/-- Layer 3: the logistic function of hL1 · WL2 + bL2. -/
def k3 (c : Dev nD) : FVec Ideal S50000x1 .f32 :=
  Cert.Spec.dense Ideal.logistic 50000 1024 1 (tr (s := S50000x1024) (k2 m c)) (tr (s := S1024x1) (m ((c : Thread nD τ).loc main_arg7))) (shapeCast S1x1 (m ((c : Thread nD τ).loc main_arg8)) shapeCasts_S1_S1x1)

/-! ## Before the first layer -/

theorem W1_main_v5 (c : Dev nD) : W1 m ρ c (Proc.devRef .tc main_v5) = srcT (m ((c : Thread nD τ).loc main_arg9)) := by
  show StableHlo.after hostOps0 (W0 m ρ c) (Proc.devRef .tc main_v5) = _
  after_results_simp <;> rfl
theorem W1_main_v6 (c : Dev nD) : W1 m ρ c (Proc.devRef .tc main_v6) = dstT (m ((c : Thread nD τ).loc main_arg9)) := by
  show StableHlo.after hostOps0 (W0 m ρ c) (Proc.devRef .tc main_v6) = _
  after_results_simp <;> rfl
theorem W1_main_v26 (c : Dev nD) : W1 m ρ c (Proc.devRef .tc main_v26) = normT (F := Ideal) (m ((c : Thread nD τ).loc main_arg9)) := by
  show StableHlo.after hostOps0 (W0 m ρ c) (Proc.devRef .tc main_v26) = _
  after_results_simp <;> rfl
theorem W1_main_v27 (c : Dev nD) : W1 m ρ c (Proc.devRef .tc main_v27) = broadcastInDim S128 ![] bcast_S_S128 (constant (F := Ideal) S_ .f32 0x00000000#32) := by
  show StableHlo.after hostOps0 (W0 m ρ c) (Proc.devRef .tc main_v27) = _
  after_results_simp <;> rfl
theorem W1_main_v28 (c : Dev nD) : W1 m ρ c (Proc.devRef .tc main_v28) = (tr (s := S50000x10) (m ((c : Thread nD τ).loc main_arg0))) := by
  show StableHlo.after hostOps0 (W0 m ρ c) (Proc.devRef .tc main_v28) = _
  after_results_simp <;> rfl
theorem W1_main_v29 (c : Dev nD) : W1 m ρ c (Proc.devRef .tc main_v29) = (tr (s := S10x128) (m ((c : Thread nD τ).loc main_arg1))) := by
  show StableHlo.after hostOps0 (W0 m ρ c) (Proc.devRef .tc main_v29) = _
  after_results_simp <;> rfl
theorem W1_main_v30 (c : Dev nD) : W1 m ρ c (Proc.devRef .tc main_v30) = Z := by
  show StableHlo.after hostOps0 (W0 m ρ c) (Proc.devRef .tc main_v30) = _
  after_results_simp <;> rfl
theorem W1_main_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_main_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_main_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_main_arg4 (c : Dev nD) : W1 m ρ c (Proc.devRef .tc main_arg4) = m ((c : Thread nD τ).loc main_arg4) := by
  show StableHlo.after hostOps0 (W0 m ρ c) (Proc.devRef .tc main_arg4) = _
  after_results_simp <;> rfl
theorem W1_main_arg5 (c : Dev nD) : W1 m ρ c (Proc.devRef .tc main_arg5) = m ((c : Thread nD τ).loc main_arg5) := by
  show StableHlo.after hostOps0 (W0 m ρ c) (Proc.devRef .tc main_arg5) = _
  after_results_simp <;> rfl
theorem W1_main_arg6 (c : Dev nD) : W1 m ρ c (Proc.devRef .tc main_arg6) = m ((c : Thread nD τ).loc main_arg6) := by
  show StableHlo.after hostOps0 (W0 m ρ c) (Proc.devRef .tc main_arg6) = _
  after_results_simp <;> rfl
theorem W1_main_arg7 (c : Dev nD) : W1 m ρ c (Proc.devRef .tc main_arg7) = m ((c : Thread nD τ).loc main_arg7) := by
  show StableHlo.after hostOps0 (W0 m ρ c) (Proc.devRef .tc main_arg7) = _
  after_results_simp <;> rfl
theorem W1_main_arg8 (c : Dev nD) : W1 m ρ c (Proc.devRef .tc main_arg8) = m ((c : Thread nD τ).loc main_arg8) := by
  show StableHlo.after hostOps0 (W0 m ρ c) (Proc.devRef .tc main_arg8) = _
  after_results_simp <;> rfl

/-! ## The four layers, as hypotheses: each result array is the dense layer of its three operand arrays as found -/

section Layers

variable (hR0 : ∀ (V : (c : Dev nD) → (b : Ref sig .tc) → Buf (Elt Ideal) ((c : Thread nD τ).loc b)) (c : Dev nD),
    (dat0 (F := Ideal) V c).arrAt 3 cfg0.N = Cert.Spec.dense id 50000 10 128 (V c main_v28) (V c main_v29) (V c main_v30))
variable (hR1 : ∀ (V : (c : Dev nD) → (b : Ref sig .tc) → Buf (Elt Ideal) ((c : Thread nD τ).loc b)) (c : Dev nD),
    (dat1 (F := Ideal) V c).arrAt 3 cfg1.N = Cert.Spec.dense id 50000 128 128 (V c main_v49) (V c main_v50) (V c main_v51))
variable (hR2 : ∀ (V : (c : Dev nD) → (b : Ref sig .tc) → Buf (Elt Ideal) ((c : Thread nD τ).loc b)) (c : Dev nD),
    (dat2 (F := Ideal) V c).arrAt 3 cfg2.N = Cert.Spec.dense Cert.Spec.relu 50000 138 1024 (V c main_v71) (V c main_v72) (V c main_v73))
variable (hR3 : ∀ (V : (c : Dev nD) → (b : Ref sig .tc) → Buf (Elt Ideal) ((c : Thread nD τ).loc b)) (c : Dev nD),
    (dat3 (F := Ideal) V c).arrAt 3 cfg3.N = Cert.Spec.dense Ideal.logistic 50000 1024 1 (V c main_v75) (V c main_v76) (V c main_v77))

/-! ## After layer 0 -/

include hR0 in
theorem W2_main_v31 (c : Dev nD) : W2 m ρ c (Proc.devRef .tc main_v31) = k0 m c := by
  refine (W2_arr m ρ c 3).trans ?_
  rw [hR0 (V1 m ρ) c]
  show Cert.Spec.dense id 50000 10 128 (W1 m ρ c (Proc.devRef .tc main_v28)) (W1 m ρ c (Proc.devRef .tc main_v29)) (W1 m ρ c (Proc.devRef .tc main_v30)) = _
  rw [W1_main_v28, W1_main_v29, W1_main_v30]
  rfl
theorem W2_main_v5 (c : Dev nD) : W2 m ρ c (Proc.devRef .tc main_v5) = srcT (m ((c : Thread nD τ).loc main_arg9)) :=
  (W2_of_ne m ρ c main_v5 (by decide)).trans (W1_main_v5 m ρ c)
theorem W2_main_v6 (c : Dev nD) : W2 m ρ c (Proc.devRef .tc main_v6) = dstT (m ((c : Thread nD τ).loc main_arg9)) :=
  (W2_of_ne m ρ c main_v6 (by decide)).trans (W1_main_v6 m ρ c)
theorem W2_main_v26 (c : Dev nD) : W2 m ρ c (Proc.devRef .tc main_v26) = normT (F := Ideal) (m ((c : Thread nD τ).loc main_arg9)) :=
  (W2_of_ne m ρ c main_v26 (by decide)).trans (W1_main_v26 m ρ c)
theorem W2_main_v27 (c : Dev nD) : W2 m ρ c (Proc.devRef .tc main_v27) = broadcastInDim S128 ![] bcast_S_S128 (constant (F := Ideal) S_ .f32 0x00000000#32) :=
  (W2_of_ne m ρ c main_v27 (by decide)).trans (W1_main_v27 m ρ c)
theorem W2_main_arg0 (c : Dev nD) : W2 m ρ c (Proc.devRef .tc main_arg0) = m ((c : Thread nD τ).loc main_arg0) :=
  (W2_of_ne m ρ c main_arg0 (by decide)).trans (W1_main_arg0 m ρ c)
theorem W2_main_arg2 (c : Dev nD) : W2 m ρ c (Proc.devRef .tc main_arg2) = m ((c : Thread nD τ).loc main_arg2) :=
  (W2_of_ne m ρ c main_arg2 (by decide)).trans (W1_main_arg2 m ρ c)
theorem W2_main_arg3 (c : Dev nD) : W2 m ρ c (Proc.devRef .tc main_arg3) = m ((c : Thread nD τ).loc main_arg3) :=
  (W2_of_ne m ρ c main_arg3 (by decide)).trans (W1_main_arg3 m ρ c)
theorem W2_main_arg4 (c : Dev nD) : W2 m ρ c (Proc.devRef .tc main_arg4) = m ((c : Thread nD τ).loc main_arg4) :=
  (W2_of_ne m ρ c main_arg4 (by decide)).trans (W1_main_arg4 m ρ c)
theorem W2_main_arg5 (c : Dev nD) : W2 m ρ c (Proc.devRef .tc main_arg5) = m ((c : Thread nD τ).loc main_arg5) :=
  (W2_of_ne m ρ c main_arg5 (by decide)).trans (W1_main_arg5 m ρ c)
theorem W2_main_arg6 (c : Dev nD) : W2 m ρ c (Proc.devRef .tc main_arg6) = m ((c : Thread nD τ).loc main_arg6) :=
  (W2_of_ne m ρ c main_arg6 (by decide)).trans (W1_main_arg6 m ρ c)
theorem W2_main_arg7 (c : Dev nD) : W2 m ρ c (Proc.devRef .tc main_arg7) = m ((c : Thread nD τ).loc main_arg7) :=
  (W2_of_ne m ρ c main_arg7 (by decide)).trans (W1_main_arg7 m ρ c)
theorem W2_main_arg8 (c : Dev nD) : W2 m ρ c (Proc.devRef .tc main_arg8) = m ((c : Thread nD τ).loc main_arg8) :=
  (W2_of_ne m ρ c main_arg8 (by decide)).trans (W1_main_arg8 m ρ c)

end Layers

end Cert.KernelIdeal.KV

end
-- ==== Proof.KValueB.lean ====
/-
  The first propagation step and the second layer: the boundary before the second layer holds the cast of
  max (Σ norm · h[source] + b1, 0) of the first layer's result; the second layer's result is the dense layer of it.
-/
import proofs.«124041_j47579647705688_1_alg».proof.Proof.KValueA

set_option maxRecDepth 16384

noncomputable section

namespace Cert.KernelIdeal.KV

open Cert.KernelIdeal Cert.KernelIdeal.Gen Cert.KernelIdeal.Shared
open Idealize.ShloMosaic Idealize.ShloMosaic.TcCoe Idealize.SL.Sem Idealize.ShloMosaic.StableHlo

variable (m : (ℓ : Loc nD τ sig) → Buf (Elt Ideal) ℓ) (ρ : Dev nD → PrngReg)

section Layers
variable (hR0 : ∀ (V : (c : Dev nD) → (b : Ref sig .tc) → Buf (Elt Ideal) ((c : Thread nD τ).loc b)) (c : Dev nD),
    (dat0 (F := Ideal) V c).arrAt 3 cfg0.N = Cert.Spec.dense id 50000 10 128 (V c main_v28) (V c main_v29) (V c main_v30))
variable (hR1 : ∀ (V : (c : Dev nD) → (b : Ref sig .tc) → Buf (Elt Ideal) ((c : Thread nD τ).loc b)) (c : Dev nD),
    (dat1 (F := Ideal) V c).arrAt 3 cfg1.N = Cert.Spec.dense id 50000 128 128 (V c main_v49) (V c main_v50) (V c main_v51))
variable (hR2 : ∀ (V : (c : Dev nD) → (b : Ref sig .tc) → Buf (Elt Ideal) ((c : Thread nD τ).loc b)) (c : Dev nD),
    (dat2 (F := Ideal) V c).arrAt 3 cfg2.N = Cert.Spec.dense Cert.Spec.relu 50000 138 1024 (V c main_v71) (V c main_v72) (V c main_v73))
variable (hR3 : ∀ (V : (c : Dev nD) → (b : Ref sig .tc) → Buf (Elt Ideal) ((c : Thread nD τ).loc b)) (c : Dev nD),
    (dat3 (F := Ideal) V c).arrAt 3 cfg3.N = Cert.Spec.dense Ideal.logistic 50000 1024 1 (V c main_v75) (V c main_v76) (V c main_v77))

/-! ## Before layer 1: the first propagation step and the casts -/

include hR0 in
theorem W5_main_v49 (c : Dev nD) : W5 m ρ c (Proc.devRef .tc main_v49) = (tr (s := S50000x128) (g1 m c)) := by
  show StableHlo.after hostOps1_2 (StableHlo.after hostOps1_1 (StableHlo.after hostOps1 (W2 m ρ c))) (Proc.devRef .tc main_v49) = _
  after_results_simp
  rw [W2_main_v31 m ρ hR0, W2_main_v5, W2_main_v6, W2_main_v26, W2_main_arg2]
  rfl
theorem W5_main_v50 (c : Dev nD) : W5 m ρ c (Proc.devRef .tc main_v50) = (tr (s := S128x128) (m ((c : Thread nD τ).loc main_arg3))) := by
  show StableHlo.after hostOps1_2 (StableHlo.after hostOps1_1 (StableHlo.after hostOps1 (W2 m ρ c))) (Proc.devRef .tc main_v50) = _
  after_results_simp
  rw [W2_main_arg3]
theorem W5_main_v51 (c : Dev nD) : W5 m ρ c (Proc.devRef .tc main_v51) = Z := by
  show StableHlo.after hostOps1_2 (StableHlo.after hostOps1_1 (StableHlo.after hostOps1 (W2 m ρ c))) (Proc.devRef .tc main_v51) = _
  after_results_simp
  rw [W2_main_v27]
  rfl
theorem W5_main_v5 (c : Dev nD) : W5 m ρ c (Proc.devRef .tc main_v5) = srcT (m ((c : Thread nD τ).loc main_arg9)) := by
  show StableHlo.after hostOps1_2 (StableHlo.after hostOps1_1 (StableHlo.after hostOps1 (W2 m ρ c))) (Proc.devRef .tc main_v5) = _
  after_results_simp
  exact W2_main_v5 m ρ c
theorem W5_main_v6 (c : Dev nD) : W5 m ρ c (Proc.devRef .tc main_v6) = dstT (m ((c : Thread nD τ).loc main_arg9)) := by
  show StableHlo.after hostOps1_2 (StableHlo.after hostOps1_1 (StableHlo.after hostOps1 (W2 m ρ c))) (Proc.devRef .tc main_v6) = _
  after_results_simp
  exact W2_main_v6 m ρ c
theorem W5_main_v26 (c : Dev nD) : W5 m ρ c (Proc.devRef .tc main_v26) = normT (F := Ideal) (m ((c : Thread nD τ).loc main_arg9)) := by
  show StableHlo.after hostOps1_2 (StableHlo.after hostOps1_1 (StableHlo.after hostOps1 (W2 m ρ c))) (Proc.devRef .tc main_v26) = _
  after_results_simp
  exact W2_main_v26 m ρ c
theorem W5_main_arg0 (c : Dev nD) : W5 m ρ c (Proc.devRef .tc main_arg0) = m ((c : Thread nD τ).loc main_arg0) := by
  show StableHlo.after hostOps1_2 (StableHlo.after hostOps1_1 (StableHlo.after hostOps1 (W2 m ρ c))) (Proc.devRef .tc main_arg0) = _
  after_results_simp
  exact W2_main_arg0 m ρ c
theorem W5_main_arg4 (c : Dev nD) : W5 m ρ c (Proc.devRef .tc main_arg4) = m ((c : Thread nD τ).loc main_arg4) := by
  show StableHlo.after hostOps1_2 (StableHlo.after hostOps1_1 (StableHlo.after hostOps1 (W2 m ρ c))) (Proc.devRef .tc main_arg4) = _
  after_results_simp
  exact W2_main_arg4 m ρ c
theorem W5_main_arg5 (c : Dev nD) : W5 m ρ c (Proc.devRef .tc main_arg5) = m ((c : Thread nD τ).loc main_arg5) := by
  show StableHlo.after hostOps1_2 (StableHlo.after hostOps1_1 (StableHlo.after hostOps1 (W2 m ρ c))) (Proc.devRef .tc main_arg5) = _
  after_results_simp
  exact W2_main_arg5 m ρ c
theorem W5_main_arg6 (c : Dev nD) : W5 m ρ c (Proc.devRef .tc main_arg6) = m ((c : Thread nD τ).loc main_arg6) := by
  show StableHlo.after hostOps1_2 (StableHlo.after hostOps1_1 (StableHlo.after hostOps1 (W2 m ρ c))) (Proc.devRef .tc main_arg6) = _
  after_results_simp
  exact W2_main_arg6 m ρ c
theorem W5_main_arg7 (c : Dev nD) : W5 m ρ c (Proc.devRef .tc main_arg7) = m ((c : Thread nD τ).loc main_arg7) := by
  show StableHlo.after hostOps1_2 (StableHlo.after hostOps1_1 (StableHlo.after hostOps1 (W2 m ρ c))) (Proc.devRef .tc main_arg7) = _
  after_results_simp
  exact W2_main_arg7 m ρ c
theorem W5_main_arg8 (c : Dev nD) : W5 m ρ c (Proc.devRef .tc main_arg8) = m ((c : Thread nD τ).loc main_arg8) := by
  show StableHlo.after hostOps1_2 (StableHlo.after hostOps1_1 (StableHlo.after hostOps1 (W2 m ρ c))) (Proc.devRef .tc main_arg8) = _
  after_results_simp
  exact W2_main_arg8 m ρ c

/-! ## After layer 1 -/

include hR0 hR1 in
theorem W6_main_v52 (c : Dev nD) : W6 m ρ c (Proc.devRef .tc main_v52) = k1 m c := by
  refine (W6_arr m ρ c 3).trans ?_
  rw [hR1 (V5 m ρ) c]
  show Cert.Spec.dense id 50000 128 128 (W5 m ρ c (Proc.devRef .tc main_v49)) (W5 m ρ c (Proc.devRef .tc main_v50)) (W5 m ρ c (Proc.devRef .tc main_v51)) = _
  rw [W5_main_v49 m ρ hR0, W5_main_v50, W5_main_v51]
  rfl
theorem W6_main_v5 (c : Dev nD) : W6 m ρ c (Proc.devRef .tc main_v5) = srcT (m ((c : Thread nD τ).loc main_arg9)) :=
  (W6_of_ne m ρ c main_v5 (by decide)).trans (W5_main_v5 m ρ c)
theorem W6_main_v6 (c : Dev nD) : W6 m ρ c (Proc.devRef .tc main_v6) = dstT (m ((c : Thread nD τ).loc main_arg9)) :=
  (W6_of_ne m ρ c main_v6 (by decide)).trans (W5_main_v6 m ρ c)
theorem W6_main_v26 (c : Dev nD) : W6 m ρ c (Proc.devRef .tc main_v26) = normT (F := Ideal) (m ((c : Thread nD τ).loc main_arg9)) :=
  (W6_of_ne m ρ c main_v26 (by decide)).trans (W5_main_v26 m ρ c)
theorem W6_main_arg0 (c : Dev nD) : W6 m ρ c (Proc.devRef .tc main_arg0) = m ((c : Thread nD τ).loc main_arg0) :=
  (W6_of_ne m ρ c main_arg0 (by decide)).trans (W5_main_arg0 m ρ c)
theorem W6_main_arg4 (c : Dev nD) : W6 m ρ c (Proc.devRef .tc main_arg4) = m ((c : Thread nD τ).loc main_arg4) :=
  (W6_of_ne m ρ c main_arg4 (by decide)).trans (W5_main_arg4 m ρ c)
theorem W6_main_arg5 (c : Dev nD) : W6 m ρ c (Proc.devRef .tc main_arg5) = m ((c : Thread nD τ).loc main_arg5) :=
  (W6_of_ne m ρ c main_arg5 (by decide)).trans (W5_main_arg5 m ρ c)
theorem W6_main_arg6 (c : Dev nD) : W6 m ρ c (Proc.devRef .tc main_arg6) = m ((c : Thread nD τ).loc main_arg6) :=
  (W6_of_ne m ρ c main_arg6 (by decide)).trans (W5_main_arg6 m ρ c)
theorem W6_main_arg7 (c : Dev nD) : W6 m ρ c (Proc.devRef .tc main_arg7) = m ((c : Thread nD τ).loc main_arg7) :=
  (W6_of_ne m ρ c main_arg7 (by decide)).trans (W5_main_arg7 m ρ c)
theorem W6_main_arg8 (c : Dev nD) : W6 m ρ c (Proc.devRef .tc main_arg8) = m ((c : Thread nD τ).loc main_arg8) :=
  (W6_of_ne m ρ c main_arg8 (by decide)).trans (W5_main_arg8 m ρ c)

end Layers

end Cert.KernelIdeal.KV

end
-- ==== Proof.KValueC.lean ====
/-
  The second propagation step, the concatenation with the input features, and the third layer.
-/
import proofs.«124041_j47579647705688_1_alg».proof.Proof.KValueB

set_option maxRecDepth 16384

noncomputable section

namespace Cert.KernelIdeal.KV

open Cert.KernelIdeal Cert.KernelIdeal.Gen Cert.KernelIdeal.Shared
open Idealize.ShloMosaic Idealize.ShloMosaic.TcCoe Idealize.SL.Sem Idealize.ShloMosaic.StableHlo

variable (m : (ℓ : Loc nD τ sig) → Buf (Elt Ideal) ℓ) (ρ : Dev nD → PrngReg)

section Layers
variable (hR0 : ∀ (V : (c : Dev nD) → (b : Ref sig .tc) → Buf (Elt Ideal) ((c : Thread nD τ).loc b)) (c : Dev nD),
    (dat0 (F := Ideal) V c).arrAt 3 cfg0.N = Cert.Spec.dense id 50000 10 128 (V c main_v28) (V c main_v29) (V c main_v30))
variable (hR1 : ∀ (V : (c : Dev nD) → (b : Ref sig .tc) → Buf (Elt Ideal) ((c : Thread nD τ).loc b)) (c : Dev nD),
    (dat1 (F := Ideal) V c).arrAt 3 cfg1.N = Cert.Spec.dense id 50000 128 128 (V c main_v49) (V c main_v50) (V c main_v51))
variable (hR2 : ∀ (V : (c : Dev nD) → (b : Ref sig .tc) → Buf (Elt Ideal) ((c : Thread nD τ).loc b)) (c : Dev nD),
    (dat2 (F := Ideal) V c).arrAt 3 cfg2.N = Cert.Spec.dense Cert.Spec.relu 50000 138 1024 (V c main_v71) (V c main_v72) (V c main_v73))
variable (hR3 : ∀ (V : (c : Dev nD) → (b : Ref sig .tc) → Buf (Elt Ideal) ((c : Thread nD τ).loc b)) (c : Dev nD),
    (dat3 (F := Ideal) V c).arrAt 3 cfg3.N = Cert.Spec.dense Ideal.logistic 50000 1024 1 (V c main_v75) (V c main_v76) (V c main_v77))

/-! ## Before layer 2: the second propagation step, the concatenation and the casts -/

include hR0 hR1 in
theorem W8_main_v69 (c : Dev nD) : W8 m ρ c (Proc.devRef .tc main_v69) = g2 m c := by
  show StableHlo.after hostOps2_1 (StableHlo.after hostOps2 (W6 m ρ c)) (Proc.devRef .tc main_v69) = _
  after_results_simp
  rw [W6_main_v52 m ρ hR0 hR1, W6_main_v5, W6_main_v6, W6_main_v26, W6_main_arg4]
  rfl
theorem W8_main_arg0 (c : Dev nD) : W8 m ρ c (Proc.devRef .tc main_arg0) = m ((c : Thread nD τ).loc main_arg0) := by
  show StableHlo.after hostOps2_1 (StableHlo.after hostOps2 (W6 m ρ c)) (Proc.devRef .tc main_arg0) = _
  after_results_simp
  exact W6_main_arg0 m ρ c
include hR0 hR1 in
theorem W9_main_v71 (c : Dev nD) : W9 m ρ c (Proc.devRef .tc main_v71) = (tr (s := S50000x138) (cat m c)) := by
  show StableHlo.after hostOps2_2 (W8 m ρ c) (Proc.devRef .tc main_v71) = _
  have e69 := W8_main_v69 m ρ hR0 hR1 c
  have e0 := W8_main_arg0 m ρ c
  generalize W8 m ρ c = W at e69 e0 ⊢
  after_results
  rw [e69, e0]
  rfl
theorem W9_main_v72 (c : Dev nD) : W9 m ρ c (Proc.devRef .tc main_v72) = (tr (s := S138x1024) (m ((c : Thread nD τ).loc main_arg5))) := by
  show StableHlo.after hostOps2_2 (StableHlo.after hostOps2_1 (StableHlo.after hostOps2 (W6 m ρ c))) (Proc.devRef .tc main_v72) = _
  after_results_simp
  rw [W6_main_arg5]
theorem W9_main_v73 (c : Dev nD) : W9 m ρ c (Proc.devRef .tc main_v73) = shapeCast S1x1024 (m ((c : Thread nD τ).loc main_arg6)) shapeCasts_S1024_S1x1024 := by
  show StableHlo.after hostOps2_2 (StableHlo.after hostOps2_1 (StableHlo.after hostOps2 (W6 m ρ c))) (Proc.devRef .tc main_v73) = _
  after_results_simp
  rw [W6_main_arg6]
  rfl
theorem W9_main_arg7 (c : Dev nD) : W9 m ρ c (Proc.devRef .tc main_arg7) = m ((c : Thread nD τ).loc main_arg7) := by
  show StableHlo.after hostOps2_2 (StableHlo.after hostOps2_1 (StableHlo.after hostOps2 (W6 m ρ c))) (Proc.devRef .tc main_arg7) = _
  after_results_simp
  exact W6_main_arg7 m ρ c
theorem W9_main_arg8 (c : Dev nD) : W9 m ρ c (Proc.devRef .tc main_arg8) = m ((c : Thread nD τ).loc main_arg8) := by
  show StableHlo.after hostOps2_2 (StableHlo.after hostOps2_1 (StableHlo.after hostOps2 (W6 m ρ c))) (Proc.devRef .tc main_arg8) = _
  after_results_simp
  exact W6_main_arg8 m ρ c

/-! ## After layer 2 -/

include hR0 hR1 hR2 in
theorem W10_main_v74 (c : Dev nD) : W10 m ρ c (Proc.devRef .tc main_v74) = k2 m c := by
  refine (W10_arr m ρ c 3).trans ?_
  rw [hR2 (V9 m ρ) c]
  show Cert.Spec.dense Cert.Spec.relu 50000 138 1024 (W9 m ρ c (Proc.devRef .tc main_v71)) (W9 m ρ c (Proc.devRef .tc main_v72)) (W9 m ρ c (Proc.devRef .tc main_v73)) = _
  rw [W9_main_v71 m ρ hR0 hR1, W9_main_v72, W9_main_v73]
  rfl
theorem W10_main_arg7 (c : Dev nD) : W10 m ρ c (Proc.devRef .tc main_arg7) = m ((c : Thread nD τ).loc main_arg7) :=
  (W10_of_ne m ρ c main_arg7 (by decide)).trans (W9_main_arg7 m ρ c)
theorem W10_main_arg8 (c : Dev nD) : W10 m ρ c (Proc.devRef .tc main_arg8) = m ((c : Thread nD τ).loc main_arg8) :=
  (W10_of_ne m ρ c main_arg8 (by decide)).trans (W9_main_arg8 m ρ c)

end Layers

end Cert.KernelIdeal.KV

end
-- ==== Proof.KValueD.lean ====
/-
  The last layer: the result array at the last boundary is the four nested layers, `k3`.
-/
import proofs.«124041_j47579647705688_1_alg».proof.Proof.KValueC

set_option maxRecDepth 16384

noncomputable section

namespace Cert.KernelIdeal.KV

open Cert.KernelIdeal Cert.KernelIdeal.Gen Cert.KernelIdeal.Shared
open Idealize.ShloMosaic Idealize.ShloMosaic.TcCoe Idealize.SL.Sem Idealize.ShloMosaic.StableHlo

variable (m : (ℓ : Loc nD τ sig) → Buf (Elt Ideal) ℓ) (ρ : Dev nD → PrngReg)

section Layers
variable (hR0 : ∀ (V : (c : Dev nD) → (b : Ref sig .tc) → Buf (Elt Ideal) ((c : Thread nD τ).loc b)) (c : Dev nD),
    (dat0 (F := Ideal) V c).arrAt 3 cfg0.N = Cert.Spec.dense id 50000 10 128 (V c main_v28) (V c main_v29) (V c main_v30))
variable (hR1 : ∀ (V : (c : Dev nD) → (b : Ref sig .tc) → Buf (Elt Ideal) ((c : Thread nD τ).loc b)) (c : Dev nD),
    (dat1 (F := Ideal) V c).arrAt 3 cfg1.N = Cert.Spec.dense id 50000 128 128 (V c main_v49) (V c main_v50) (V c main_v51))
variable (hR2 : ∀ (V : (c : Dev nD) → (b : Ref sig .tc) → Buf (Elt Ideal) ((c : Thread nD τ).loc b)) (c : Dev nD),
    (dat2 (F := Ideal) V c).arrAt 3 cfg2.N = Cert.Spec.dense Cert.Spec.relu 50000 138 1024 (V c main_v71) (V c main_v72) (V c main_v73))
variable (hR3 : ∀ (V : (c : Dev nD) → (b : Ref sig .tc) → Buf (Elt Ideal) ((c : Thread nD τ).loc b)) (c : Dev nD),
    (dat3 (F := Ideal) V c).arrAt 3 cfg3.N = Cert.Spec.dense Ideal.logistic 50000 1024 1 (V c main_v75) (V c main_v76) (V c main_v77))

/-! ## Before layer 3: the casts -/

include hR0 hR1 hR2 in
theorem W11_main_v75 (c : Dev nD) : W11 m ρ c (Proc.devRef .tc main_v75) = (tr (s := S50000x1024) (k2 m c)) := by
  show StableHlo.after hostOps3 (W10 m ρ c) (Proc.devRef .tc main_v75) = _
  after_results_simp
  rw [W10_main_v74 m ρ hR0 hR1 hR2]
theorem W11_main_v76 (c : Dev nD) : W11 m ρ c (Proc.devRef .tc main_v76) = (tr (s := S1024x1) (m ((c : Thread nD τ).loc main_arg7))) := by
  show StableHlo.after hostOps3 (W10 m ρ c) (Proc.devRef .tc main_v76) = _
  after_results_simp
  rw [W10_main_arg7]
theorem W11_main_v77 (c : Dev nD) : W11 m ρ c (Proc.devRef .tc main_v77) = shapeCast S1x1 (m ((c : Thread nD τ).loc main_arg8)) shapeCasts_S1_S1x1 := by
  show StableHlo.after hostOps3 (W10 m ρ c) (Proc.devRef .tc main_v77) = _
  after_results_simp
  rw [W10_main_arg8]
  rfl

/-! ## After layer 3: the result -/

include hR0 hR1 hR2 hR3 in
/-- The result array at the last boundary is the four nested layers. -/
theorem W12_main_v78 (c : Dev nD) : W12 m ρ c (Proc.devRef .tc main_v78) = k3 m c := by
  refine (W12_arr m ρ c 3).trans ?_
  rw [hR3 (V11 m ρ) c]
  show Cert.Spec.dense Ideal.logistic 50000 1024 1 (W11 m ρ c (Proc.devRef .tc main_v75)) (W11 m ρ c (Proc.devRef .tc main_v76)) (W11 m ρ c (Proc.devRef .tc main_v77)) = _
  rw [W11_main_v75 m ρ hR0 hR1 hR2, W11_main_v76, W11_main_v77]
  rfl

end Layers

end Cert.KernelIdeal.KV

end
-- ==== Proof.Region0.lean ====
/-
  Layer 0 of the network on the accelerator: what its row-block pipeline leaves in the result array, as one function of
  the three operand arrays (rows X, weights W, bias row b) as the layer finds them: entry (r, q) is
  act (∑ k, X(r, k) · W(k, q) + b(0, q)).
-/
import proofs.«124041_j47579647705688_1_alg».proof.Proof.Gen.KernelIdeal.Frame
import proofs.«124041_j47579647705688_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx Idealize.SL.Sem

/-! ## One block's arithmetic, entry by entry -/

/-- The product's left operand index at output entry i and inner position q: row of i. -/
theorem lhs_axis0 (i : S5000x128.Idx) (q : dot_S5000x10_S10x128_S5000x128_1_0_0_1_n_n.contr.Idx) :
    (dot_S5000x10_S10x128_S5000x128_1_0_0_1_n_n.lhsIdx i q 0).val = (i 0).val := by
  unfold DotDims.lhsIdx
  rw [dif_neg (show ¬(0 : Fin S5000x10.rank) ∈ dot_S5000x10_S10x128_S5000x128_1_0_0_1_n_n.lhsBatch by decide), dif_pos (show (0 : Fin S5000x10.rank) ∈ dot_S5000x10_S10x128_S5000x128_1_0_0_1_n_n.lhsNonContracting by decide)]
  rfl
/-- … and the inner position as its column. -/
theorem lhs_axis1 (i : S5000x128.Idx) (q : dot_S5000x10_S10x128_S5000x128_1_0_0_1_n_n.contr.Idx) :
    (dot_S5000x10_S10x128_S5000x128_1_0_0_1_n_n.lhsIdx i q 1).val = (q ⟨0, by decide⟩).val :=
  dot_S5000x10_S10x128_S5000x128_1_0_0_1_n_n.lhsIdx_val_of_single rfl i q
/-- The right operand index: the inner position as its row … -/
theorem rhs_axis0 (i : S5000x128.Idx) (q : dot_S5000x10_S10x128_S5000x128_1_0_0_1_n_n.contr.Idx) :
    (dot_S5000x10_S10x128_S5000x128_1_0_0_1_n_n.rhsIdx i q 0).val = (q ⟨0, by decide⟩).val :=
  dot_S5000x10_S10x128_S5000x128_1_0_0_1_n_n.rhsIdx_val_of_single rfl i q
/-- … and the column of i. -/
theorem rhs_axis1 (i : S5000x128.Idx) (q : dot_S5000x10_S10x128_S5000x128_1_0_0_1_n_n.contr.Idx) :
    (dot_S5000x10_S10x128_S5000x128_1_0_0_1_n_n.rhsIdx i q 1).val = (i 1).val := by
  unfold DotDims.rhsIdx
  rw [dif_neg (show ¬(1 : Fin S10x128.rank) ∈ dot_S5000x10_S10x128_S5000x128_1_0_0_1_n_n.rhsBatch by decide), dif_pos (show (1 : Fin S10x128.rank) ∈ dot_S5000x10_S10x128_S5000x128_1_0_0_1_n_n.rhsNonContracting by decide)]
  rfl

/-- The block product into the zero accumulator, at entry (p, q): the sum over the inner positions. -/
theorem prod_apply (x0 : FVec Ideal S5000x10 .bf16) (x1 : FVec Ideal S10x128 .bf16) (p : Fin 5000) (q : Fin 128) :
    matmul dot_S5000x10_S10x128_S5000x128_1_0_0_1_n_n none x0 x1 (constant (F := Ideal) S5000x128 .f32 0x00000000#32) (ix2 p q)
      = ∑ k : Fin 10, x0 (ix2 p k) * x1 (ix2 k q) := by
  simp only [matmul]
  rw [Ideal.matmul_constant_zero_apply, ← Equiv.sum_comp (ValueIdx.contrEquiv1 dot_S5000x10_S10x128_S5000x128_1_0_0_1_n_n 10 rfl rfl).symm]
  refine Finset.sum_congr rfl fun k _ => ?_
  have hk := ValueIdx.contrEquiv1_symm_val dot_S5000x10_S10x128_S5000x128_1_0_0_1_n_n 10 rfl rfl k
  have el : dot_S5000x10_S10x128_S5000x128_1_0_0_1_n_n.lhsIdx (ix2 p q) ((ValueIdx.contrEquiv1 dot_S5000x10_S10x128_S5000x128_1_0_0_1_n_n 10 rfl rfl).symm k) = ix2 p k := funext fun a => Fin.ext (by
    match a with
    | ⟨0, _⟩ => exact lhs_axis0 _ _
    | ⟨1, _⟩ => exact (lhs_axis1 _ _).trans hk)
  have er : dot_S5000x10_S10x128_S5000x128_1_0_0_1_n_n.rhsIdx (ix2 p q) ((ValueIdx.contrEquiv1 dot_S5000x10_S10x128_S5000x128_1_0_0_1_n_n 10 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the block's rows, at entry (p, q): the row's entry q. -/
theorem bias_apply (x2 : FVec Ideal S1x128 .f32) (p : Fin 5000) (q : Fin 128) :
    broadcastTo S5000x128 x2 broadcasts_S1x128_S5000x128 (ix2 p q) = x2 (ix2 (0 : Fin 1) q) :=
  broadcastTo_apply x2 broadcasts_S1x128_S5000x128 (ix2 p q) (ix2 (0 : Fin 1) q) (fun a => by
    match a with
    | ⟨0, _⟩ => rfl
    | ⟨1, _⟩ => rfl)

/-- The block's result at entry (p, q). -/
theorem pay_apply (x0 : Vec Ideal S5000x10 .bf16) (x1 : Vec Ideal S10x128 .bf16) (x2 : Vec Ideal S1x128 .f32) (p : Fin 5000) (q : Fin 128) :
    k0_pay1 (F := Ideal) x0 x1 x2 (ix2 p q) = (∑ k : Fin 10, x0 (ix2 p k) * x1 (ix2 k q)) + x2 (ix2 (0 : Fin 1) q) := by
  unfold k0_pay1
  rw [shapeCast_self, shapeCast_self, shapeCast_self, addf_apply, prod_apply, bias_apply]

/-- One block's result is the layer's formula at the block's sizes. -/
theorem pay_eq (x0 : Vec Ideal S5000x10 .bf16) (x1 : Vec Ideal S10x128 .bf16) (x2 : Vec Ideal S1x128 .f32) :
    k0_pay1 (F := Ideal) x0 x1 x2 = Cert.Spec.dense id 5000 10 128 x0 x1 x2 := by
  funext j
  obtain ⟨p, q, rfl⟩ : ∃ (p : Fin 5000) (q : Fin 128), j = ix2 p q := ⟨j 0, j 1, eq_ix2 j⟩
  rw [pay_apply, Cert.Spec.dense_apply]
  rfl

/-! ## The layer's grid: which rows each point works on -/

variable (V : (c : Dev nD) → (b : Ref sig .tc) → Buf (Elt Ideal) ((c : Thread nD τ).loc b))

theorem zero_off : (![0, 0] : Fin 2 → Nat) = fun _ => 0 := funext fun a => by fin_cases a <;> rfl

/-- Decided over the grid's points: the X block moves down the rows with the result block, the weights and the bias
    row stay put, and the result's row-block number is below the number of row blocks. -/
theorem idx_facts : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 9 :=
  (by decide +kernel : ∀ t : Fin grid0.N, _)

/-- Every row block is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-! ## The operand blocks, read off the arrays -/

/-- Entry (p, k) of point t's X block is entry (r, k) of X, r the block's first row plus p. -/
theorem blockX (c : Dev nD) (t : Fin cfg0.N) (p : Fin 5000) (k : Fin 10) (r : Fin 50000)
    (hr : r.val = win0_3.index t (0 : Fin 2) * 5000 + p.val) :
    iblk0 V c 0 t (ix2 p k) = V c main_v28 (ix2 r k) := by
  obtain ⟨e0, e1, -⟩ := idx_facts t
  show V c main_v28 (((cfg0.win 0).blk t).view.emb (ix2 p k)) = V c main_v28 (ix2 r k)
  refine congrArg _ (funext fun a => Fin.ext ?_)
  match a with
  | ⟨0, _⟩ => show win0_0.index t (0 : Fin 2) * 5000 + 1 * p.val = r.val; omega
  | ⟨1, _⟩ => show win0_0.index t (1 : Fin 2) * 10 + 1 * k.val = k.val; omega

/-- Every point's W block is all of W. -/
theorem blockW (c : Dev nD) (t : Fin cfg0.N) (k : Fin 10) (q : Fin 128) :
    iblk0 V c 1 t (ix2 k q) = V c main_v29 (ix2 k q) := by
  obtain ⟨-, -, e2, e3, -⟩ := idx_facts t
  show V c main_v29 (((cfg0.win 1).blk t).view.emb (ix2 k q)) = V c main_v29 (ix2 k q)
  refine congrArg _ (funext fun a => Fin.ext ?_)
  match a with
  | ⟨0, _⟩ => show win0_1.index t (0 : Fin 2) * 10 + 1 * k.val = k.val; omega
  | ⟨1, _⟩ => show win0_1.index t (1 : Fin 2) * 128 + 1 * q.val = q.val; omega

/-- Every point's bias block is the whole bias row. -/
theorem blockB (c : Dev nD) (t : Fin cfg0.N) (z : Fin 1) (q : Fin 128) :
    iblk0 V c 2 t (ix2 z q) = V c main_v30 (ix2 z q) := by
  obtain ⟨-, -, -, -, e4, e5, -⟩ := idx_facts t
  show V c main_v30 (((cfg0.win 2).blk t).view.emb (ix2 z q)) = V c main_v30 (ix2 z q)
  refine congrArg _ (funext fun a => Fin.ext ?_)
  match a with
  | ⟨0, _⟩ => show win0_2.index t (0 : Fin 2) * 1 + 1 * z.val = z.val; omega
  | ⟨1, _⟩ => show win0_2.index t (1 : Fin 2) * 128 + 1 * q.val = q.val; omega

/-- The layer's formula at (p, q) of a row block is the formula at (r, q) of the arrays, when row p of the block's X is
    row r of the array's, and the block's weights and bias row are the arrays'. -/
theorem dense_of_rows (act : EReal → EReal)
    (X : (⟨2, ![5000, 10]⟩ : Shape).Idx → EReal) (W : (⟨2, ![10, 128]⟩ : Shape).Idx → EReal) (B : (⟨2, ![1, 128]⟩ : Shape).Idx → EReal)
    (A0 : (⟨2, ![50000, 10]⟩ : Shape).Idx → EReal) (A1 : (⟨2, ![10, 128]⟩ : Shape).Idx → EReal) (A2 : (⟨2, ![1, 128]⟩ : Shape).Idx → EReal)
    (p : Fin 5000) (q : Fin 128) (r : Fin 50000)
    (hX : ∀ k : Fin 10, X (ix2 p k) = A0 (ix2 r k)) (hW : ∀ k : Fin 10, W (ix2 k q) = A1 (ix2 k q))
    (hB : B (ix2 (0 : Fin 1) q) = A2 (ix2 (0 : Fin 1) q)) :
    Cert.Spec.dense act 5000 10 128 X W B (ix2 p q) = Cert.Spec.dense act 50000 10 128 A0 A1 A2 (ix2 r q) := by
  rw [Cert.Spec.dense_apply, Cert.Spec.dense_apply]
  show act ((∑ k : Fin 10, X (ix2 p k) * W (ix2 k q)) + B (ix2 (0 : Fin 1) q))
    = act ((∑ k : Fin 10, A0 (ix2 r k) * A1 (ix2 k q)) + A2 (ix2 (0 : Fin 1) q))
  rw [hB, Finset.sum_congr rfl fun k _ => by rw [hX k, hW k]]

/-- The layer's formula on point t's blocks at (p, q) is the layer's formula on the arrays at (r, q). -/
theorem block_dense (c : Dev nD) (t : Fin cfg0.N) (p : Fin 5000) (q : Fin 128) (r : Fin 50000)
    (hr : r.val = win0_3.index t (0 : Fin 2) * 5000 + p.val) :
    Cert.Spec.dense id 5000 10 128 (iblk0 V c 0 t) (iblk0 V c 1 t) (iblk0 V c 2 t) (ix2 p q)
      = Cert.Spec.dense id 50000 10 128 (V c main_v28) (V c main_v29) (V c main_v30) (ix2 r q) :=
  dense_of_rows id _ _ _ _ _ _ p q r (fun k => blockX V c t p k r hr) (fun k => blockW V c t k q) (blockB V c t 0 q)

/-! ## What a point writes back, and the array after the last point -/

/-- Point t writes back row block t of the layer's formula on the arrays. -/
theorem flushed_eq (c : Dev nD) (t : Fin cfg0.N) :
    (dat0 (F := Ideal) V c).flushed 3 t = ((cfg0.win 3).blk t).view.read (Elt Ideal)
      (Cert.Spec.dense id 50000 10 128 (V c main_v28) (V c main_v29) (V c main_v30)) := by
  show (cfg0.win 3).cut (grid0.coords t) ((dat0 V c).after 3 t) = _
  rw [after0_3]
  unfold out0_3
  rw [View.canon_unit_zero zero_off]
  simp only [View.ld_unit_zero (S := S5000x10) zero_off, View.ld_unit_zero (S := S10x128) zero_off, View.ld_unit_zero (S := S1x128) zero_off]
  rw [pay_eq]
  obtain ⟨-, -, -, -, -, -, e6, e7⟩ := idx_facts t
  funext j
  have hj0 : (j 0).val < 5000 := (j 0).isLt
  have hj1 : (j 1).val < 128 := (j 1).isLt
  have hL : (cfg0.win 3).xinj (grid0.coords t) j = ix2 (⟨(j 0).val, hj0⟩ : Fin 5000) (⟨(j 1).val, hj1⟩ : Fin 128) :=
    funext fun a => by match a with | ⟨0, _⟩ => rfl | ⟨1, _⟩ => rfl
  have hR : ((cfg0.win 3).blk t).view.emb j
      = ix2 (⟨win0_3.index t (0 : Fin 2) * 5000 + (j 0).val, by omega⟩ : Fin 50000) (⟨(j 1).val, hj1⟩ : Fin 128) :=
    funext fun a => Fin.ext (by
      match a with
      | ⟨0, _⟩ => show win0_3.index t (0 : Fin 2) * 5000 + 1 * (j 0).val = win0_3.index t (0 : Fin 2) * 5000 + (j 0).val; omega
      | ⟨1, _⟩ => show win0_3.index t (1 : Fin 2) * 128 + 1 * (j 1).val = (j 1).val; omega)
  show Cert.Spec.dense id 5000 10 128 (iblk0 V c 0 t) (iblk0 V c 1 t) (iblk0 V c 2 t) ((cfg0.win 3).xinj (grid0.coords t) j)
    = Cert.Spec.dense id 50000 10 128 (V c main_v28) (V c main_v29) (V c main_v30) (((cfg0.win 3).blk t).view.emb j)
  rw [hL, hR]
  exact block_dense V c t _ _ _ rfl

/-- An entry of the result array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v31).slice (win0_3.rect t)).set ↔ _
  rw [View.set_slice_whole, Rect.mem_set_unit]
  exact Iff.rfl

/-- The row blocks tile the result: row r is in the block of the point whose block number is r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE LAYER'S RESULT ARRAY after its last point: the layer's formula on the operand arrays as the layer finds them. -/
theorem arr (c : Dev nD) :
    (dat0 (F := Ideal) V c).arrAt 3 cfg0.N = Cert.Spec.dense id 50000 10 128 (V c main_v28) (V c main_v29) (V c main_v30) :=
  (dat0 V c).arrAt_eq_of_cover 3 _ (fun t _ => flushed_eq V c t) cover

end Cert.KernelIdeal.Region0

end
-- ==== Proof.Region1.lean ====
/-
  Layer 1 of the network on the accelerator (no activation): what its pipeline over 10 blocks of 5000 rows leaves in the
  result array, as one function of the three operand arrays (rows X : 50000 × 128, weights W : 128 × 128, bias row b : 1 × 128)
  as the layer finds them: entry (r, q) is act (∑ k, X(r, k) · W(k, q) + b(0, q)).
-/
import proofs.«124041_j47579647705688_1_alg».proof.Proof.Gen.KernelIdeal.Frame
import proofs.«124041_j47579647705688_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx Idealize.SL.Sem

/-! ## One block's arithmetic, entry by entry -/

/-- The product's left operand index at output entry i and inner position q: row of i … -/
theorem lhs_axis0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the inner position as its column. -/
theorem lhs_axis1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand index: the inner position as its row … -/
theorem rhs_axis0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the column of i. -/
theorem rhs_axis1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at entry (p, q): the sum over the inner positions. -/
theorem prod_apply (x0 : FVec Ideal S5000x128 .bf16) (x1 : FVec Ideal S128x128 .bf16) (p : Fin 5000) (q : Fin 128) :
    matmul dot_S5000x128_S128x128_S5000x128_1_0_0_1_n_n none x0 x1 (constant (F := Ideal) S5000x128 .f32 0x00000000#32) (ix2 p q)
      = ∑ k : Fin 128, x0 (ix2 p k) * x1 (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the block's rows, at entry (p, q): the row's entry q. -/
theorem bias_apply (x2 : FVec Ideal S1x128 .f32) (p : Fin 5000) (q : Fin 128) :
    broadcastTo S5000x128 x2 broadcasts_S1x128_S5000x128 (ix2 p q) = x2 (ix2 (0 : Fin 1) q) :=
  broadcastTo_apply x2 broadcasts_S1x128_S5000x128 (ix2 p q) (ix2 (0 : Fin 1) q) (fun a => by
    match a with
    | ⟨0, _⟩ => rfl
    | ⟨1, _⟩ => rfl)

/-- The block's result at entry (p, q). -/
theorem pay_apply (x0 : Vec Ideal S5000x128 .bf16) (x1 : Vec Ideal S128x128 .bf16) (x2 : Vec Ideal S1x128 .f32) (p : Fin 5000) (q : Fin 128) :
    k1_pay1 (F := Ideal) x0 x1 x2 (ix2 p q) = (∑ k : Fin 128, x0 (ix2 p k) * x1 (ix2 k q)) + x2 (ix2 (0 : Fin 1) q) := by
  unfold k1_pay1
  rw [shapeCast_self, shapeCast_self, shapeCast_self, addf_apply, prod_apply, bias_apply]

/-- One block's result is the layer's formula at the block's sizes. -/
theorem pay_eq (x0 : Vec Ideal S5000x128 .bf16) (x1 : Vec Ideal S128x128 .bf16) (x2 : Vec Ideal S1x128 .f32) :
    k1_pay1 (F := Ideal) x0 x1 x2 = Cert.Spec.dense id 5000 128 128 x0 x1 x2 := by
  funext j
  obtain ⟨p, q, rfl⟩ : ∃ (p : Fin 5000) (q : Fin 128), j = ix2 p q := ⟨j 0, j 1, eq_ix2 j⟩
  rw [pay_apply, Cert.Spec.dense_apply]
  rfl

/-! ## The layer's grid: which rows each point works on -/

variable (V : (c : Dev nD) → (b : Ref sig .tc) → Buf (Elt Ideal) ((c : Thread nD τ).loc b))

theorem zero_off : (![0, 0] : Fin 2 → Nat) = fun _ => 0 := funext fun a => by fin_cases a <;> rfl

/-- Decided over the grid's points: the X block moves down the rows with the result block, the weights and the bias
    row stay put, and the result's row-block number is below the number of row blocks. -/
theorem idx_facts : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 9 :=
  (by decide +kernel : ∀ t : Fin grid1.N, _)

/-- Every row block is some point's. -/
theorem idx_onto : ∀ q0 : Fin 10, ∃ t : Fin cfg1.N, win1_3.index t = ![q0.val, 0] :=
  (by decide +kernel : ∀ q0 : Fin 10, ∃ t : Fin grid1.N, win1_3.index t = ![q0.val, 0])

/-! ## The operand blocks, read off the arrays -/

/-- Entry (p, k) of point t's X block is entry (r, k) of X, r the block's first row plus p. -/
theorem blockX (c : Dev nD) (t : Fin cfg1.N) (p : Fin 5000) (k : Fin 128) (r : Fin 50000)
    (hr : r.val = win1_3.index t (0 : Fin 2) * 5000 + p.val) :
    iblk1 V c 0 t (ix2 p k) = V c main_v49 (ix2 r k) := by
  obtain ⟨e0, e1, -⟩ := idx_facts t
  show V c main_v49 (((cfg1.win 0).blk t).view.emb (ix2 p k)) = V c main_v49 (ix2 r k)
  refine congrArg _ (funext fun a => Fin.ext ?_)
  match a with
  | ⟨0, _⟩ => show win1_0.index t (0 : Fin 2) * 5000 + 1 * p.val = r.val; omega
  | ⟨1, _⟩ => show win1_0.index t (1 : Fin 2) * 128 + 1 * k.val = k.val; omega

/-- Every point's W block is all of W. -/
theorem blockW (c : Dev nD) (t : Fin cfg1.N) (k : Fin 128) (q : Fin 128) :
    iblk1 V c 1 t (ix2 k q) = V c main_v50 (ix2 k q) := by
  obtain ⟨-, -, e2, e3, -⟩ := idx_facts t
  show V c main_v50 (((cfg1.win 1).blk t).view.emb (ix2 k q)) = V c main_v50 (ix2 k q)
  refine congrArg _ (funext fun a => Fin.ext ?_)
  match a with
  | ⟨0, _⟩ => show win1_1.index t (0 : Fin 2) * 128 + 1 * k.val = k.val; omega
  | ⟨1, _⟩ => show win1_1.index t (1 : Fin 2) * 128 + 1 * q.val = q.val; omega

/-- Every point's bias block is the whole bias row. -/
theorem blockB (c : Dev nD) (t : Fin cfg1.N) (z : Fin 1) (q : Fin 128) :
    iblk1 V c 2 t (ix2 z q) = V c main_v51 (ix2 z q) := by
  obtain ⟨-, -, -, -, e4, e5, -⟩ := idx_facts t
  show V c main_v51 (((cfg1.win 2).blk t).view.emb (ix2 z q)) = V c main_v51 (ix2 z q)
  refine congrArg _ (funext fun a => Fin.ext ?_)
  match a with
  | ⟨0, _⟩ => show win1_2.index t (0 : Fin 2) * 1 + 1 * z.val = z.val; omega
  | ⟨1, _⟩ => show win1_2.index t (1 : Fin 2) * 128 + 1 * q.val = q.val; omega

/-- The layer's formula at (p, q) of a row block is the formula at (r, q) of the arrays, when row p of the block's X is
    row r of the array's, and the block's weights and bias row are the arrays'. -/
theorem dense_of_rows (act : EReal → EReal)
    (X : (⟨2, ![5000, 128]⟩ : Shape).Idx → EReal) (W : (⟨2, ![128, 128]⟩ : Shape).Idx → EReal) (B : (⟨2, ![1, 128]⟩ : Shape).Idx → EReal)
    (A0 : (⟨2, ![50000, 128]⟩ : Shape).Idx → EReal) (A1 : (⟨2, ![128, 128]⟩ : Shape).Idx → EReal) (A2 : (⟨2, ![1, 128]⟩ : Shape).Idx → EReal)
    (p : Fin 5000) (q : Fin 128) (r : Fin 50000)
    (hX : ∀ k : Fin 128, X (ix2 p k) = A0 (ix2 r k)) (hW : ∀ k : Fin 128, W (ix2 k q) = A1 (ix2 k q))
    (hB : B (ix2 (0 : Fin 1) q) = A2 (ix2 (0 : Fin 1) q)) :
    Cert.Spec.dense act 5000 128 128 X W B (ix2 p q) = Cert.Spec.dense act 50000 128 128 A0 A1 A2 (ix2 r q) := by
  rw [Cert.Spec.dense_apply, Cert.Spec.dense_apply]
  show act ((∑ k : Fin 128, X (ix2 p k) * W (ix2 k q)) + B (ix2 (0 : Fin 1) q))
    = act ((∑ k : Fin 128, A0 (ix2 r k) * A1 (ix2 k q)) + A2 (ix2 (0 : Fin 1) q))
  rw [hB, Finset.sum_congr rfl fun k _ => by rw [hX k, hW k]]

/-- The layer's formula on point t's blocks at (p, q) is the layer's formula on the arrays at (r, q). -/
theorem block_dense (c : Dev nD) (t : Fin cfg1.N) (p : Fin 5000) (q : Fin 128) (r : Fin 50000)
    (hr : r.val = win1_3.index t (0 : Fin 2) * 5000 + p.val) :
    Cert.Spec.dense id 5000 128 128 (iblk1 V c 0 t) (iblk1 V c 1 t) (iblk1 V c 2 t) (ix2 p q)
      = Cert.Spec.dense id 50000 128 128 (V c main_v49) (V c main_v50) (V c main_v51) (ix2 r q) :=
  dense_of_rows id _ _ _ _ _ _ p q r (fun k => blockX V c t p k r hr) (fun k => blockW V c t k q) (blockB V c t 0 q)

/-! ## What a point writes back, and the array after the last point -/

/-- Point t writes back row block t of the layer's formula on the arrays. -/
theorem flushed_eq (c : Dev nD) (t : Fin cfg1.N) :
    (dat1 (F := Ideal) V c).flushed 3 t = ((cfg1.win 3).blk t).view.read (Elt Ideal)
      (Cert.Spec.dense id 50000 128 128 (V c main_v49) (V c main_v50) (V c main_v51)) := by
  show (cfg1.win 3).cut (grid1.coords t) ((dat1 V c).after 3 t) = _
  rw [after1_3]
  unfold out1_3
  rw [View.canon_unit_zero zero_off]
  simp only [View.ld_unit_zero (S := S5000x128) zero_off, View.ld_unit_zero (S := S128x128) zero_off, View.ld_unit_zero (S := S1x128) zero_off]
  rw [pay_eq]
  obtain ⟨-, -, -, -, -, -, e6, e7⟩ := idx_facts t
  funext j
  have hj0 : (j 0).val < 5000 := (j 0).isLt
  have hj1 : (j 1).val < 128 := (j 1).isLt
  have hL : (cfg1.win 3).xinj (grid1.coords t) j = ix2 (⟨(j 0).val, hj0⟩ : Fin 5000) (⟨(j 1).val, hj1⟩ : Fin 128) :=
    funext fun a => by match a with | ⟨0, _⟩ => rfl | ⟨1, _⟩ => rfl
  have hR : ((cfg1.win 3).blk t).view.emb j
      = ix2 (⟨win1_3.index t (0 : Fin 2) * 5000 + (j 0).val, by omega⟩ : Fin 50000) (⟨(j 1).val, hj1⟩ : Fin 128) :=
    funext fun a => Fin.ext (by
      match a with
      | ⟨0, _⟩ => show win1_3.index t (0 : Fin 2) * 5000 + 1 * (j 0).val = win1_3.index t (0 : Fin 2) * 5000 + (j 0).val; omega
      | ⟨1, _⟩ => show win1_3.index t (1 : Fin 2) * 128 + 1 * (j 1).val = (j 1).val; omega)
  show Cert.Spec.dense id 5000 128 128 (iblk1 V c 0 t) (iblk1 V c 1 t) (iblk1 V c 2 t) ((cfg1.win 3).xinj (grid1.coords t) j)
    = Cert.Spec.dense id 50000 128 128 (V c main_v49) (V c main_v50) (V c main_v51) (((cfg1.win 3).blk t).view.emb j)
  rw [hL, hR]
  exact block_dense V c t _ _ _ rfl

/-- An entry of the result array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v52).slice (win1_3.rect t)).set ↔ _
  rw [View.set_slice_whole, Rect.mem_set_unit]
  exact Iff.rfl

/-- The row blocks tile the result: row r is in the block of the point whose block number is r / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE LAYER'S RESULT ARRAY after its last point: the layer's formula on the operand arrays as the layer finds them. -/
theorem arr (c : Dev nD) :
    (dat1 (F := Ideal) V c).arrAt 3 cfg1.N = Cert.Spec.dense id 50000 128 128 (V c main_v49) (V c main_v50) (V c main_v51) :=
  (dat1 V c).arrAt_eq_of_cover 3 _ (fun t _ => flushed_eq V c t) cover

end Cert.KernelIdeal.Region1

end
-- ==== Proof.Region2.lean ====
/-
  Layer 2 of the network on the accelerator (the rectified-linear activation): what its pipeline over 25 blocks of 2000 rows leaves in the
  result array, as one function of the three operand arrays (rows X : 50000 × 138, weights W : 138 × 1024, bias row b : 1 × 1024)
  as the layer finds them: entry (r, q) is act (∑ k, X(r, k) · W(k, q) + b(0, q)).
-/
import proofs.«124041_j47579647705688_1_alg».proof.Proof.Gen.KernelIdeal.Frame
import proofs.«124041_j47579647705688_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx Idealize.SL.Sem

/-! ## One block's arithmetic, entry by entry -/

/-- The product's left operand index at output entry i and inner position q: row of i … -/
theorem lhs_axis0 (i : S2000x1024.Idx) (q : dot_S2000x138_S138x1024_S2000x1024_1_0_0_1_n_n.contr.Idx) :
    (dot_S2000x138_S138x1024_S2000x1024_1_0_0_1_n_n.lhsIdx i q 0).val = (i 0).val := by
  unfold DotDims.lhsIdx
  rw [dif_neg (show ¬(0 : Fin S2000x138.rank) ∈ dot_S2000x138_S138x1024_S2000x1024_1_0_0_1_n_n.lhsBatch by decide), dif_pos (show (0 : Fin S2000x138.rank) ∈ dot_S2000x138_S138x1024_S2000x1024_1_0_0_1_n_n.lhsNonContracting by decide)]
  rfl
/-- … and the inner position as its column. -/
theorem lhs_axis1 (i : S2000x1024.Idx) (q : dot_S2000x138_S138x1024_S2000x1024_1_0_0_1_n_n.contr.Idx) :
    (dot_S2000x138_S138x1024_S2000x1024_1_0_0_1_n_n.lhsIdx i q 1).val = (q ⟨0, by decide⟩).val :=
  dot_S2000x138_S138x1024_S2000x1024_1_0_0_1_n_n.lhsIdx_val_of_single rfl i q
/-- The right operand index: the inner position as its row … -/
theorem rhs_axis0 (i : S2000x1024.Idx) (q : dot_S2000x138_S138x1024_S2000x1024_1_0_0_1_n_n.contr.Idx) :
    (dot_S2000x138_S138x1024_S2000x1024_1_0_0_1_n_n.rhsIdx i q 0).val = (q ⟨0, by decide⟩).val :=
  dot_S2000x138_S138x1024_S2000x1024_1_0_0_1_n_n.rhsIdx_val_of_single rfl i q
/-- … and the column of i. -/
theorem rhs_axis1 (i : S2000x1024.Idx) (q : dot_S2000x138_S138x1024_S2000x1024_1_0_0_1_n_n.contr.Idx) :
    (dot_S2000x138_S138x1024_S2000x1024_1_0_0_1_n_n.rhsIdx i q 1).val = (i 1).val := by
  unfold DotDims.rhsIdx
  rw [dif_neg (show ¬(1 : Fin S138x1024.rank) ∈ dot_S2000x138_S138x1024_S2000x1024_1_0_0_1_n_n.rhsBatch by decide), dif_pos (show (1 : Fin S138x1024.rank) ∈ dot_S2000x138_S138x1024_S2000x1024_1_0_0_1_n_n.rhsNonContracting by decide)]
  rfl

/-- The block product into the zero accumulator, at entry (p, q): the sum over the inner positions. -/
theorem prod_apply (x0 : FVec Ideal S2000x138 .bf16) (x1 : FVec Ideal S138x1024 .bf16) (p : Fin 2000) (q : Fin 1024) :
    matmul dot_S2000x138_S138x1024_S2000x1024_1_0_0_1_n_n none x0 x1 (constant (F := Ideal) S2000x1024 .f32 0x00000000#32) (ix2 p q)
      = ∑ k : Fin 138, x0 (ix2 p k) * x1 (ix2 k q) := by
  simp only [matmul]
  rw [Ideal.matmul_constant_zero_apply, ← Equiv.sum_comp (ValueIdx.contrEquiv1 dot_S2000x138_S138x1024_S2000x1024_1_0_0_1_n_n 138 rfl rfl).symm]
  refine Finset.sum_congr rfl fun k _ => ?_
  have hk := ValueIdx.contrEquiv1_symm_val dot_S2000x138_S138x1024_S2000x1024_1_0_0_1_n_n 138 rfl rfl k
  have el : dot_S2000x138_S138x1024_S2000x1024_1_0_0_1_n_n.lhsIdx (ix2 p q) ((ValueIdx.contrEquiv1 dot_S2000x138_S138x1024_S2000x1024_1_0_0_1_n_n 138 rfl rfl).symm k) = ix2 p k := funext fun a => Fin.ext (by
    match a with
    | ⟨0, _⟩ => exact lhs_axis0 _ _
    | ⟨1, _⟩ => exact (lhs_axis1 _ _).trans hk)
  have er : dot_S2000x138_S138x1024_S2000x1024_1_0_0_1_n_n.rhsIdx (ix2 p q) ((ValueIdx.contrEquiv1 dot_S2000x138_S138x1024_S2000x1024_1_0_0_1_n_n 138 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the block's rows, at entry (p, q): the row's entry q. -/
theorem bias_apply (x2 : FVec Ideal S1x1024 .f32) (p : Fin 2000) (q : Fin 1024) :
    broadcastTo S2000x1024 x2 broadcasts_S1x1024_S2000x1024 (ix2 p q) = x2 (ix2 (0 : Fin 1) q) :=
  broadcastTo_apply x2 broadcasts_S1x1024_S2000x1024 (ix2 p q) (ix2 (0 : Fin 1) q) (fun a => by
    match a with
    | ⟨0, _⟩ => rfl
    | ⟨1, _⟩ => rfl)

/-- The block's result at entry (p, q). -/
theorem pay_apply (x0 : Vec Ideal S2000x138 .bf16) (x1 : Vec Ideal S138x1024 .bf16) (x2 : Vec Ideal S1x1024 .f32) (p : Fin 2000) (q : Fin 1024) :
    k2_pay1 (F := Ideal) x0 x1 x2 (ix2 p q) = max ((∑ k : Fin 138, x0 (ix2 p k) * x1 (ix2 k q)) + x2 (ix2 (0 : Fin 1) q)) 0 := by
  unfold k2_pay1
  rw [shapeCast_self, shapeCast_self, shapeCast_self, maximumf_apply, addf_apply, prod_apply, bias_apply, broadcast_apply]
  show max _ (Ideal.ofBits .f32 0x00000000#32) = _
  rw [Ideal.ofBits_zero_f32]

/-- One block's result is the layer's formula at the block's sizes. -/
theorem pay_eq (x0 : Vec Ideal S2000x138 .bf16) (x1 : Vec Ideal S138x1024 .bf16) (x2 : Vec Ideal S1x1024 .f32) :
    k2_pay1 (F := Ideal) x0 x1 x2 = Cert.Spec.dense Cert.Spec.relu 2000 138 1024 x0 x1 x2 := by
  funext j
  obtain ⟨p, q, rfl⟩ : ∃ (p : Fin 2000) (q : Fin 1024), j = ix2 p q := ⟨j 0, j 1, eq_ix2 j⟩
  rw [pay_apply, Cert.Spec.dense_apply]

/-! ## The layer's grid: which rows each point works on -/

variable (V : (c : Dev nD) → (b : Ref sig .tc) → Buf (Elt Ideal) ((c : Thread nD τ).loc b))

theorem zero_off : (![0, 0] : Fin 2 → Nat) = fun _ => 0 := funext fun a => by fin_cases a <;> rfl

/-- Decided over the grid's points: the X block moves down the rows with the result block, the weights and the bias
    row stay put, and the result's row-block number is below the number of row blocks. -/
theorem idx_facts : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 24 :=
  (by decide +kernel : ∀ t : Fin grid2.N, _)

/-- Every row block is some point's. -/
theorem idx_onto : ∀ q0 : Fin 25, ∃ t : Fin cfg2.N, win2_3.index t = ![q0.val, 0] :=
  (by decide +kernel : ∀ q0 : Fin 25, ∃ t : Fin grid2.N, win2_3.index t = ![q0.val, 0])

/-! ## The operand blocks, read off the arrays -/

/-- Entry (p, k) of point t's X block is entry (r, k) of X, r the block's first row plus p. -/
theorem blockX (c : Dev nD) (t : Fin cfg2.N) (p : Fin 2000) (k : Fin 138) (r : Fin 50000)
    (hr : r.val = win2_3.index t (0 : Fin 2) * 2000 + p.val) :
    iblk2 V c 0 t (ix2 p k) = V c main_v71 (ix2 r k) := by
  obtain ⟨e0, e1, -⟩ := idx_facts t
  show V c main_v71 (((cfg2.win 0).blk t).view.emb (ix2 p k)) = V c main_v71 (ix2 r k)
  refine congrArg _ (funext fun a => Fin.ext ?_)
  match a with
  | ⟨0, _⟩ => show win2_0.index t (0 : Fin 2) * 2000 + 1 * p.val = r.val; omega
  | ⟨1, _⟩ => show win2_0.index t (1 : Fin 2) * 138 + 1 * k.val = k.val; omega

/-- Every point's W block is all of W. -/
theorem blockW (c : Dev nD) (t : Fin cfg2.N) (k : Fin 138) (q : Fin 1024) :
    iblk2 V c 1 t (ix2 k q) = V c main_v72 (ix2 k q) := by
  obtain ⟨-, -, e2, e3, -⟩ := idx_facts t
  show V c main_v72 (((cfg2.win 1).blk t).view.emb (ix2 k q)) = V c main_v72 (ix2 k q)
  refine congrArg _ (funext fun a => Fin.ext ?_)
  match a with
  | ⟨0, _⟩ => show win2_1.index t (0 : Fin 2) * 138 + 1 * k.val = k.val; omega
  | ⟨1, _⟩ => show win2_1.index t (1 : Fin 2) * 1024 + 1 * q.val = q.val; omega

/-- Every point's bias block is the whole bias row. -/
theorem blockB (c : Dev nD) (t : Fin cfg2.N) (z : Fin 1) (q : Fin 1024) :
    iblk2 V c 2 t (ix2 z q) = V c main_v73 (ix2 z q) := by
  obtain ⟨-, -, -, -, e4, e5, -⟩ := idx_facts t
  show V c main_v73 (((cfg2.win 2).blk t).view.emb (ix2 z q)) = V c main_v73 (ix2 z q)
  refine congrArg _ (funext fun a => Fin.ext ?_)
  match a with
  | ⟨0, _⟩ => show win2_2.index t (0 : Fin 2) * 1 + 1 * z.val = z.val; omega
  | ⟨1, _⟩ => show win2_2.index t (1 : Fin 2) * 1024 + 1 * q.val = q.val; omega

/-- The layer's formula at (p, q) of a row block is the formula at (r, q) of the arrays, when row p of the block's X is
    row r of the array's, and the block's weights and bias row are the arrays'. -/
theorem dense_of_rows (act : EReal → EReal)
    (X : (⟨2, ![2000, 138]⟩ : Shape).Idx → EReal) (W : (⟨2, ![138, 1024]⟩ : Shape).Idx → EReal) (B : (⟨2, ![1, 1024]⟩ : Shape).Idx → EReal)
    (A0 : (⟨2, ![50000, 138]⟩ : Shape).Idx → EReal) (A1 : (⟨2, ![138, 1024]⟩ : Shape).Idx → EReal) (A2 : (⟨2, ![1, 1024]⟩ : Shape).Idx → EReal)
    (p : Fin 2000) (q : Fin 1024) (r : Fin 50000)
    (hX : ∀ k : Fin 138, X (ix2 p k) = A0 (ix2 r k)) (hW : ∀ k : Fin 138, W (ix2 k q) = A1 (ix2 k q))
    (hB : B (ix2 (0 : Fin 1) q) = A2 (ix2 (0 : Fin 1) q)) :
    Cert.Spec.dense act 2000 138 1024 X W B (ix2 p q) = Cert.Spec.dense act 50000 138 1024 A0 A1 A2 (ix2 r q) := by
  rw [Cert.Spec.dense_apply, Cert.Spec.dense_apply]
  show act ((∑ k : Fin 138, X (ix2 p k) * W (ix2 k q)) + B (ix2 (0 : Fin 1) q))
    = act ((∑ k : Fin 138, A0 (ix2 r k) * A1 (ix2 k q)) + A2 (ix2 (0 : Fin 1) q))
  rw [hB, Finset.sum_congr rfl fun k _ => by rw [hX k, hW k]]

/-- The layer's formula on point t's blocks at (p, q) is the layer's formula on the arrays at (r, q). -/
theorem block_dense (c : Dev nD) (t : Fin cfg2.N) (p : Fin 2000) (q : Fin 1024) (r : Fin 50000)
    (hr : r.val = win2_3.index t (0 : Fin 2) * 2000 + p.val) :
    Cert.Spec.dense Cert.Spec.relu 2000 138 1024 (iblk2 V c 0 t) (iblk2 V c 1 t) (iblk2 V c 2 t) (ix2 p q)
      = Cert.Spec.dense Cert.Spec.relu 50000 138 1024 (V c main_v71) (V c main_v72) (V c main_v73) (ix2 r q) :=
  dense_of_rows Cert.Spec.relu _ _ _ _ _ _ p q r (fun k => blockX V c t p k r hr) (fun k => blockW V c t k q) (blockB V c t 0 q)

/-! ## What a point writes back, and the array after the last point -/

/-- Point t writes back row block t of the layer's formula on the arrays. -/
theorem flushed_eq (c : Dev nD) (t : Fin cfg2.N) :
    (dat2 (F := Ideal) V c).flushed 3 t = ((cfg2.win 3).blk t).view.read (Elt Ideal)
      (Cert.Spec.dense Cert.Spec.relu 50000 138 1024 (V c main_v71) (V c main_v72) (V c main_v73)) := by
  show (cfg2.win 3).cut (grid2.coords t) ((dat2 V c).after 3 t) = _
  rw [after2_3]
  unfold out2_3
  rw [View.canon_unit_zero zero_off]
  simp only [View.ld_unit_zero (S := S2000x138) zero_off, View.ld_unit_zero (S := S138x1024) zero_off, View.ld_unit_zero (S := S1x1024) zero_off]
  rw [pay_eq]
  obtain ⟨-, -, -, -, -, -, e6, e7⟩ := idx_facts t
  funext j
  have hj0 : (j 0).val < 2000 := (j 0).isLt
  have hj1 : (j 1).val < 1024 := (j 1).isLt
  have hL : (cfg2.win 3).xinj (grid2.coords t) j = ix2 (⟨(j 0).val, hj0⟩ : Fin 2000) (⟨(j 1).val, hj1⟩ : Fin 1024) :=
    funext fun a => by match a with | ⟨0, _⟩ => rfl | ⟨1, _⟩ => rfl
  have hR : ((cfg2.win 3).blk t).view.emb j
      = ix2 (⟨win2_3.index t (0 : Fin 2) * 2000 + (j 0).val, by omega⟩ : Fin 50000) (⟨(j 1).val, hj1⟩ : Fin 1024) :=
    funext fun a => Fin.ext (by
      match a with
      | ⟨0, _⟩ => show win2_3.index t (0 : Fin 2) * 2000 + 1 * (j 0).val = win2_3.index t (0 : Fin 2) * 2000 + (j 0).val; omega
      | ⟨1, _⟩ => show win2_3.index t (1 : Fin 2) * 1024 + 1 * (j 1).val = (j 1).val; omega)
  show Cert.Spec.dense Cert.Spec.relu 2000 138 1024 (iblk2 V c 0 t) (iblk2 V c 1 t) (iblk2 V c 2 t) ((cfg2.win 3).xinj (grid2.coords t) j)
    = Cert.Spec.dense Cert.Spec.relu 50000 138 1024 (V c main_v71) (V c main_v72) (V c main_v73) (((cfg2.win 3).blk t).view.emb j)
  rw [hL, hR]
  exact block_dense V c t _ _ _ rfl

/-- An entry of the result array is in point t's block iff each coordinate is in the block's range on its axis. -/
theorem mem_blk (t : Fin cfg2.N) (i : S50000x1024.Idx) :
    i ∈ ((cfg2.win 3).blk t).view.set ↔ ∀ a : Fin 2, win2_3.index t a * S2000x1024.size a ≤ (i a).val ∧ (i a).val < win2_3.index t a * S2000x1024.size a + S2000x1024.size a := by
  show i ∈ ((View.whole main_v74).slice (win2_3.rect t)).set ↔ _
  rw [View.set_slice_whole, Rect.mem_set_unit]
  exact Iff.rfl

/-- The row blocks tile the result: row r is in the block of the point whose block number is r / 2000. -/
theorem cover (i : S50000x1024.Idx) :
    ∃ t : Fin cfg2.N, (cfg2.win 3).flush t = true ∧ i ∈ ((cfg2.win 3).blk t).view.set := by
  have hi0 : (i 0).val < 50000 := (i 0).isLt
  have hi1 : (i 1).val < 1024 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 1024 ≤ (i 1).val ∧ (i 1).val < win2_3.index t (1 : Fin 2) * 1024 + 1024; omega

/-- THE LAYER'S RESULT ARRAY after its last point: the layer's formula on the operand arrays as the layer finds them. -/
theorem arr (c : Dev nD) :
    (dat2 (F := Ideal) V c).arrAt 3 cfg2.N = Cert.Spec.dense Cert.Spec.relu 50000 138 1024 (V c main_v71) (V c main_v72) (V c main_v73) :=
  (dat2 V c).arrAt_eq_of_cover 3 _ (fun t _ => flushed_eq V c t) cover

end Cert.KernelIdeal.Region2

end
-- ==== Proof.Region3.lean ====
/-
  Layer 3 of the network on the accelerator (the logistic activation): what its pipeline over 25 blocks of 2000 rows leaves in the
  result array, as one function of the three operand arrays (rows X : 50000 × 1024, weights W : 1024 × 1, bias row b : 1 × 1)
  as the layer finds them: entry (r, q) is act (∑ k, X(r, k) · W(k, q) + b(0, q)).
-/
import proofs.«124041_j47579647705688_1_alg».proof.Proof.Gen.KernelIdeal.Frame
import proofs.«124041_j47579647705688_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx Idealize.SL.Sem

/-! ## One block's arithmetic, entry by entry -/

/-- The product's left operand index at output entry i and inner position q: row of i … -/
theorem lhs_axis0 (i : S2000x1.Idx) (q : dot_S2000x1024_S1024x1_S2000x1_1_0_0_1_n_n.contr.Idx) :
    (dot_S2000x1024_S1024x1_S2000x1_1_0_0_1_n_n.lhsIdx i q 0).val = (i 0).val := by
  unfold DotDims.lhsIdx
  rw [dif_neg (show ¬(0 : Fin S2000x1024.rank) ∈ dot_S2000x1024_S1024x1_S2000x1_1_0_0_1_n_n.lhsBatch by decide), dif_pos (show (0 : Fin S2000x1024.rank) ∈ dot_S2000x1024_S1024x1_S2000x1_1_0_0_1_n_n.lhsNonContracting by decide)]
  rfl
/-- … and the inner position as its column. -/
theorem lhs_axis1 (i : S2000x1.Idx) (q : dot_S2000x1024_S1024x1_S2000x1_1_0_0_1_n_n.contr.Idx) :
    (dot_S2000x1024_S1024x1_S2000x1_1_0_0_1_n_n.lhsIdx i q 1).val = (q ⟨0, by decide⟩).val :=
  dot_S2000x1024_S1024x1_S2000x1_1_0_0_1_n_n.lhsIdx_val_of_single rfl i q
/-- The right operand index: the inner position as its row … -/
theorem rhs_axis0 (i : S2000x1.Idx) (q : dot_S2000x1024_S1024x1_S2000x1_1_0_0_1_n_n.contr.Idx) :
    (dot_S2000x1024_S1024x1_S2000x1_1_0_0_1_n_n.rhsIdx i q 0).val = (q ⟨0, by decide⟩).val :=
  dot_S2000x1024_S1024x1_S2000x1_1_0_0_1_n_n.rhsIdx_val_of_single rfl i q
/-- … and the column of i. -/
theorem rhs_axis1 (i : S2000x1.Idx) (q : dot_S2000x1024_S1024x1_S2000x1_1_0_0_1_n_n.contr.Idx) :
    (dot_S2000x1024_S1024x1_S2000x1_1_0_0_1_n_n.rhsIdx i q 1).val = (i 1).val := by
  unfold DotDims.rhsIdx
  rw [dif_neg (show ¬(1 : Fin S1024x1.rank) ∈ dot_S2000x1024_S1024x1_S2000x1_1_0_0_1_n_n.rhsBatch by decide), dif_pos (show (1 : Fin S1024x1.rank) ∈ dot_S2000x1024_S1024x1_S2000x1_1_0_0_1_n_n.rhsNonContracting by decide)]
  rfl

/-- The block product into the zero accumulator, at entry (p, q): the sum over the inner positions. -/
theorem prod_apply (x0 : FVec Ideal S2000x1024 .bf16) (x1 : FVec Ideal S1024x1 .bf16) (p : Fin 2000) (q : Fin 1) :
    matmul dot_S2000x1024_S1024x1_S2000x1_1_0_0_1_n_n none x0 x1 (constant (F := Ideal) S2000x1 .f32 0x00000000#32) (ix2 p q)
      = ∑ k : Fin 1024, x0 (ix2 p k) * x1 (ix2 k q) := by
  simp only [matmul]
  rw [Ideal.matmul_constant_zero_apply, ← Equiv.sum_comp (ValueIdx.contrEquiv1 dot_S2000x1024_S1024x1_S2000x1_1_0_0_1_n_n 1024 rfl rfl).symm]
  refine Finset.sum_congr rfl fun k _ => ?_
  have hk := ValueIdx.contrEquiv1_symm_val dot_S2000x1024_S1024x1_S2000x1_1_0_0_1_n_n 1024 rfl rfl k
  have el : dot_S2000x1024_S1024x1_S2000x1_1_0_0_1_n_n.lhsIdx (ix2 p q) ((ValueIdx.contrEquiv1 dot_S2000x1024_S1024x1_S2000x1_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S2000x1024_S1024x1_S2000x1_1_0_0_1_n_n.rhsIdx (ix2 p q) ((ValueIdx.contrEquiv1 dot_S2000x1024_S1024x1_S2000x1_1_0_0_1_n_n 1024 rfl rfl).symm k) = ix2 k q := funext fun a => Fin.ext (by
    match a with
    | ⟨0, _⟩ => exact (rhs_axis0 _ _).trans hk
    | ⟨1, _⟩ => exact rhs_axis1 _ _)
  rw [el, er]

/-- The bias row broadcast down the block's rows, at entry (p, q): the row's entry q. -/
theorem bias_apply (x2 : FVec Ideal S1x1 .f32) (p : Fin 2000) (q : Fin 1) :
    broadcastTo S2000x1 x2 broadcasts_S1x1_S2000x1 (ix2 p q) = x2 (ix2 (0 : Fin 1) q) :=
  broadcastTo_apply x2 broadcasts_S1x1_S2000x1 (ix2 p q) (ix2 (0 : Fin 1) q) (fun a => by
    match a with
    | ⟨0, _⟩ => rfl
    | ⟨1, _⟩ => show q.val = 0; have := q.isLt; omega)

/-- The logistic function of a block, at an entry: the logistic function of the entry. -/
theorem logistic_apply {s : Shape} {φ : FTy} (a : FVec Ideal s φ) (i : s.Idx) : logistic a i = Ideal.logistic (a i) := rfl

/-- The block's result at entry (p, q). -/
theorem pay_apply (x0 : Vec Ideal S2000x1024 .bf16) (x1 : Vec Ideal S1024x1 .bf16) (x2 : Vec Ideal S1x1 .f32) (p : Fin 2000) (q : Fin 1) :
    k3_pay1 (F := Ideal) x0 x1 x2 (ix2 p q) = Ideal.logistic ((∑ k : Fin 1024, x0 (ix2 p k) * x1 (ix2 k q)) + x2 (ix2 (0 : Fin 1) q)) := by
  unfold k3_pay1
  rw [shapeCast_self, shapeCast_self, shapeCast_self, logistic_apply, addf_apply, prod_apply, bias_apply]

/-- One block's result is the layer's formula at the block's sizes. -/
theorem pay_eq (x0 : Vec Ideal S2000x1024 .bf16) (x1 : Vec Ideal S1024x1 .bf16) (x2 : Vec Ideal S1x1 .f32) :
    k3_pay1 (F := Ideal) x0 x1 x2 = Cert.Spec.dense Ideal.logistic 2000 1024 1 x0 x1 x2 := by
  funext j
  obtain ⟨p, q, rfl⟩ : ∃ (p : Fin 2000) (q : Fin 1), j = ix2 p q := ⟨j 0, j 1, eq_ix2 j⟩
  rw [pay_apply, Cert.Spec.dense_apply]

/-! ## The layer's grid: which rows each point works on -/

variable (V : (c : Dev nD) → (b : Ref sig .tc) → Buf (Elt Ideal) ((c : Thread nD τ).loc b))

theorem zero_off : (![0, 0] : Fin 2 → Nat) = fun _ => 0 := funext fun a => by fin_cases a <;> rfl

/-- Decided over the grid's points: the X block moves down the rows with the result block, the weights and the bias
    row stay put, and the result's row-block number is below the number of row blocks. -/
theorem idx_facts : ∀ t : Fin cfg3.N, win3_0.index t (0 : Fin 2) = win3_3.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (1 : Fin 2) = 0
    ∧ win3_3.index t (0 : Fin 2) ≤ 24 :=
  (by decide +kernel : ∀ t : Fin grid3.N, _)

/-- Every row block is some point's. -/
theorem idx_onto : ∀ q0 : Fin 25, ∃ t : Fin cfg3.N, win3_3.index t = ![q0.val, 0] :=
  (by decide +kernel : ∀ q0 : Fin 25, ∃ t : Fin grid3.N, win3_3.index t = ![q0.val, 0])

/-! ## The operand blocks, read off the arrays -/

/-- Entry (p, k) of point t's X block is entry (r, k) of X, r the block's first row plus p. -/
theorem blockX (c : Dev nD) (t : Fin cfg3.N) (p : Fin 2000) (k : Fin 1024) (r : Fin 50000)
    (hr : r.val = win3_3.index t (0 : Fin 2) * 2000 + p.val) :
    iblk3 V c 0 t (ix2 p k) = V c main_v75 (ix2 r k) := by
  obtain ⟨e0, e1, -⟩ := idx_facts t
  show V c main_v75 (((cfg3.win 0).blk t).view.emb (ix2 p k)) = V c main_v75 (ix2 r k)
  refine congrArg _ (funext fun a => Fin.ext ?_)
  match a with
  | ⟨0, _⟩ => show win3_0.index t (0 : Fin 2) * 2000 + 1 * p.val = r.val; omega
  | ⟨1, _⟩ => show win3_0.index t (1 : Fin 2) * 1024 + 1 * k.val = k.val; omega

/-- Every point's W block is all of W. -/
theorem blockW (c : Dev nD) (t : Fin cfg3.N) (k : Fin 1024) (q : Fin 1) :
    iblk3 V c 1 t (ix2 k q) = V c main_v76 (ix2 k q) := by
  obtain ⟨-, -, e2, e3, -⟩ := idx_facts t
  show V c main_v76 (((cfg3.win 1).blk t).view.emb (ix2 k q)) = V c main_v76 (ix2 k q)
  refine congrArg _ (funext fun a => Fin.ext ?_)
  match a with
  | ⟨0, _⟩ => show win3_1.index t (0 : Fin 2) * 1024 + 1 * k.val = k.val; omega
  | ⟨1, _⟩ => show win3_1.index t (1 : Fin 2) * 1 + 1 * q.val = q.val; omega

/-- Every point's bias block is the whole bias row. -/
theorem blockB (c : Dev nD) (t : Fin cfg3.N) (z : Fin 1) (q : Fin 1) :
    iblk3 V c 2 t (ix2 z q) = V c main_v77 (ix2 z q) := by
  obtain ⟨-, -, -, -, e4, e5, -⟩ := idx_facts t
  show V c main_v77 (((cfg3.win 2).blk t).view.emb (ix2 z q)) = V c main_v77 (ix2 z q)
  refine congrArg _ (funext fun a => Fin.ext ?_)
  match a with
  | ⟨0, _⟩ => show win3_2.index t (0 : Fin 2) * 1 + 1 * z.val = z.val; omega
  | ⟨1, _⟩ => show win3_2.index t (1 : Fin 2) * 1 + 1 * q.val = q.val; omega

/-- The layer's formula at (p, q) of a row block is the formula at (r, q) of the arrays, when row p of the block's X is
    row r of the array's, and the block's weights and bias row are the arrays'. -/
theorem dense_of_rows (act : EReal → EReal)
    (X : (⟨2, ![2000, 1024]⟩ : Shape).Idx → EReal) (W : (⟨2, ![1024, 1]⟩ : Shape).Idx → EReal) (B : (⟨2, ![1, 1]⟩ : Shape).Idx → EReal)
    (A0 : (⟨2, ![50000, 1024]⟩ : Shape).Idx → EReal) (A1 : (⟨2, ![1024, 1]⟩ : Shape).Idx → EReal) (A2 : (⟨2, ![1, 1]⟩ : Shape).Idx → EReal)
    (p : Fin 2000) (q : Fin 1) (r : Fin 50000)
    (hX : ∀ k : Fin 1024, X (ix2 p k) = A0 (ix2 r k)) (hW : ∀ k : Fin 1024, W (ix2 k q) = A1 (ix2 k q))
    (hB : B (ix2 (0 : Fin 1) q) = A2 (ix2 (0 : Fin 1) q)) :
    Cert.Spec.dense act 2000 1024 1 X W B (ix2 p q) = Cert.Spec.dense act 50000 1024 1 A0 A1 A2 (ix2 r q) := by
  rw [Cert.Spec.dense_apply, Cert.Spec.dense_apply]
  show act ((∑ k : Fin 1024, X (ix2 p k) * W (ix2 k q)) + B (ix2 (0 : Fin 1) q))
    = act ((∑ k : Fin 1024, A0 (ix2 r k) * A1 (ix2 k q)) + A2 (ix2 (0 : Fin 1) q))
  rw [hB, Finset.sum_congr rfl fun k _ => by rw [hX k, hW k]]

/-- The layer's formula on point t's blocks at (p, q) is the layer's formula on the arrays at (r, q). -/
theorem block_dense (c : Dev nD) (t : Fin cfg3.N) (p : Fin 2000) (q : Fin 1) (r : Fin 50000)
    (hr : r.val = win3_3.index t (0 : Fin 2) * 2000 + p.val) :
    Cert.Spec.dense Ideal.logistic 2000 1024 1 (iblk3 V c 0 t) (iblk3 V c 1 t) (iblk3 V c 2 t) (ix2 p q)
      = Cert.Spec.dense Ideal.logistic 50000 1024 1 (V c main_v75) (V c main_v76) (V c main_v77) (ix2 r q) :=
  dense_of_rows Ideal.logistic _ _ _ _ _ _ p q r (fun k => blockX V c t p k r hr) (fun k => blockW V c t k q) (blockB V c t 0 q)

/-! ## What a point writes back, and the array after the last point -/

/-- Point t writes back row block t of the layer's formula on the arrays. -/
theorem flushed_eq (c : Dev nD) (t : Fin cfg3.N) :
    (dat3 (F := Ideal) V c).flushed 3 t = ((cfg3.win 3).blk t).view.read (Elt Ideal)
      (Cert.Spec.dense Ideal.logistic 50000 1024 1 (V c main_v75) (V c main_v76) (V c main_v77)) := by
  show (cfg3.win 3).cut (grid3.coords t) ((dat3 V c).after 3 t) = _
  rw [after3_3]
  unfold out3_3
  rw [View.canon_unit_zero zero_off]
  simp only [View.ld_unit_zero (S := S2000x1024) zero_off, View.ld_unit_zero (S := S1024x1) zero_off, View.ld_unit_zero (S := S1x1) zero_off]
  rw [pay_eq]
  obtain ⟨-, -, -, -, -, -, e6, e7⟩ := idx_facts t
  funext j
  have hj0 : (j 0).val < 2000 := (j 0).isLt
  have hj1 : (j 1).val < 1 := (j 1).isLt
  have hL : (cfg3.win 3).xinj (grid3.coords t) j = ix2 (⟨(j 0).val, hj0⟩ : Fin 2000) (⟨(j 1).val, hj1⟩ : Fin 1) :=
    funext fun a => by match a with | ⟨0, _⟩ => rfl | ⟨1, _⟩ => rfl
  have hR : ((cfg3.win 3).blk t).view.emb j
      = ix2 (⟨win3_3.index t (0 : Fin 2) * 2000 + (j 0).val, by omega⟩ : Fin 50000) (⟨(j 1).val, hj1⟩ : Fin 1) :=
    funext fun a => Fin.ext (by
      match a with
      | ⟨0, _⟩ => show win3_3.index t (0 : Fin 2) * 2000 + 1 * (j 0).val = win3_3.index t (0 : Fin 2) * 2000 + (j 0).val; omega
      | ⟨1, _⟩ => show win3_3.index t (1 : Fin 2) * 1 + 1 * (j 1).val = (j 1).val; omega)
  show Cert.Spec.dense Ideal.logistic 2000 1024 1 (iblk3 V c 0 t) (iblk3 V c 1 t) (iblk3 V c 2 t) ((cfg3.win 3).xinj (grid3.coords t) j)
    = Cert.Spec.dense Ideal.logistic 50000 1024 1 (V c main_v75) (V c main_v76) (V c main_v77) (((cfg3.win 3).blk t).view.emb j)
  rw [hL, hR]
  exact block_dense V c t _ _ _ rfl

/-- An entry of the result array is in point t's block iff each coordinate is in the block's range on its axis. -/
theorem mem_blk (t : Fin cfg3.N) (i : S50000x1.Idx) :
    i ∈ ((cfg3.win 3).blk t).view.set ↔ ∀ a : Fin 2, win3_3.index t a * S2000x1.size a ≤ (i a).val ∧ (i a).val < win3_3.index t a * S2000x1.size a + S2000x1.size a := by
  show i ∈ ((View.whole main_v78).slice (win3_3.rect t)).set ↔ _
  rw [View.set_slice_whole, Rect.mem_set_unit]
  exact Iff.rfl

/-- The row blocks tile the result: row r is in the block of the point whose block number is r / 2000. -/
theorem cover (i : S50000x1.Idx) :
    ∃ t : Fin cfg3.N, (cfg3.win 3).flush t = true ∧ i ∈ ((cfg3.win 3).blk t).view.set := by
  have hi0 : (i 0).val < 50000 := (i 0).isLt
  have hi1 : (i 1).val < 1 := (i 1).isLt
  obtain ⟨t, ht⟩ := idx_onto ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 1 ≤ (i 1).val ∧ (i 1).val < win3_3.index t (1 : Fin 2) * 1 + 1; omega

/-- THE LAYER'S RESULT ARRAY after its last point: the layer's formula on the operand arrays as the layer finds them. -/
theorem arr (c : Dev nD) :
    (dat3 (F := Ideal) V c).arrAt 3 cfg3.N = Cert.Spec.dense Ideal.logistic 50000 1024 1 (V c main_v75) (V c main_v76) (V c main_v77) :=
  (dat3 V c).arrAt_eq_of_cover 3 _ (fun t _ => flushed_eq V c t) cover

end Cert.KernelIdeal.Region3

end
-- ==== Proof.RefLayers.lean ====
/-
  The reference's four dense layers as whole arrays over the extended reals. Each layer is a matrix product on the host,
  then (for the last two) the bias row added to every row and the activation applied entry by entry. Entry by entry each is
  the shared formula: act (Σ_k X(r, k) · W(k, q) + B(0, q)). The first two layers carry no bias and no activation of their
  own here (B is zero, act is the identity); the third rectifies (max · 0); the fourth is 1 / (1 + e^(-x)), the logistic
  function by its definition.
-/
import proofs.«124041_j47579647705688_1_alg».proof.Proof.Gen.ReferenceIdeal.Read
import proofs.«124041_j47579647705688_1_alg».proof.Proof.DenseSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Layers

open Cert.ReferenceIdeal Cert.ReferenceIdeal.Gen Idealize.ShloMosaic Idealize.ShloMosaic.TcCoe Idealize.ShloMosaic.ValueIdx

/-! ## The four matrix products at an entry -/

/-- Entry i of the 50000×10 by 10×128 host matrix product: the sum over the 10 inner positions of X(row i, k) · W(k, col i). -/
theorem dot0_apply (X : FVec Ideal S50000x10 .f32) (W : FVec Ideal S10x128 .f32) (i : S50000x128.Idx) :
    Host.dotGeneral dot_S50000x10_S10x128_S50000x128_1_0_0_1_n_n none X W i
      = ∑ k : Fin 10, X (ix2 (Cert.Spec.rowOf i) k) * W (ix2 k (Cert.Spec.colOf i)) := by
  simp only [Host.dotGeneral]
  rw [Ideal.dotGeneral_apply, ← Equiv.sum_comp (ValueIdx.contrEquiv1 dot_S50000x10_S10x128_S50000x128_1_0_0_1_n_n 10 rfl rfl).symm]
  refine Finset.sum_congr rfl fun k _ => ?_
  have hk := ValueIdx.contrEquiv1_symm_val dot_S50000x10_S10x128_S50000x128_1_0_0_1_n_n 10 rfl rfl k
  have el : dot_S50000x10_S10x128_S50000x128_1_0_0_1_n_n.lhsIdx i ((ValueIdx.contrEquiv1 dot_S50000x10_S10x128_S50000x128_1_0_0_1_n_n 10 rfl rfl).symm k) = ix2 (Cert.Spec.rowOf i) k := funext fun a => Fin.ext (by
    match a with
    | ⟨0, _⟩ => exact Read.lhs_main_v4_0 _ _
    | ⟨1, _⟩ => exact (Read.lhs_main_v4_1 _ _).trans hk)
  have er : dot_S50000x10_S10x128_S50000x128_1_0_0_1_n_n.rhsIdx i ((ValueIdx.contrEquiv1 dot_S50000x10_S10x128_S50000x128_1_0_0_1_n_n 10 rfl rfl).symm k) = ix2 k (Cert.Spec.colOf i) := funext fun a => Fin.ext (by
    match a with
    | ⟨0, _⟩ => exact (Read.rhs_main_v4_0 _ _).trans hk
    | ⟨1, _⟩ => exact Read.rhs_main_v4_1 _ _)
  rw [el, er]

/-- Entry i of the 50000×128 by 128×128 host matrix product: the sum over the 128 inner positions of X(row i, k) · W(k, col i). -/
theorem dot1_apply (X : FVec Ideal S50000x128 .f32) (W : FVec Ideal S128x128 .f32) (i : S50000x128.Idx) :
    Host.dotGeneral dot_S50000x128_S128x128_S50000x128_1_0_0_1_n_n none X W i
      = ∑ k : Fin 128, X (ix2 (Cert.Spec.rowOf i) k) * W (ix2 k (Cert.Spec.colOf i)) := by
  simp only [Host.dotGeneral]
  rw [Ideal.dotGeneral_apply, ← Equiv.sum_comp (ValueIdx.contrEquiv1 dot_S50000x128_S128x128_S50000x128_1_0_0_1_n_n 128 rfl rfl).symm]
  refine Finset.sum_congr rfl fun k _ => ?_
  have hk := ValueIdx.contrEquiv1_symm_val dot_S50000x128_S128x128_S50000x128_1_0_0_1_n_n 128 rfl rfl k
  have el : dot_S50000x128_S128x128_S50000x128_1_0_0_1_n_n.lhsIdx i ((ValueIdx.contrEquiv1 dot_S50000x128_S128x128_S50000x128_1_0_0_1_n_n 128 rfl rfl).symm k) = ix2 (Cert.Spec.rowOf i) k := funext fun a => Fin.ext (by
    match a with
    | ⟨0, _⟩ => exact Read.lhs_main_v45_0 _ _
    | ⟨1, _⟩ => exact (Read.lhs_main_v45_1 _ _).trans hk)
  have er : dot_S50000x128_S128x128_S50000x128_1_0_0_1_n_n.rhsIdx i ((ValueIdx.contrEquiv1 dot_S50000x128_S128x128_S50000x128_1_0_0_1_n_n 128 rfl rfl).symm k) = ix2 k (Cert.Spec.colOf i) := funext fun a => Fin.ext (by
    match a with
    | ⟨0, _⟩ => exact (Read.rhs_main_v45_0 _ _).trans hk
    | ⟨1, _⟩ => exact Read.rhs_main_v45_1 _ _)
  rw [el, er]

/-- Entry i of the 50000×138 by 138×1024 host matrix product: the sum over the 138 inner positions of X(row i, k) · W(k, col i). -/
theorem dot2_apply (X : FVec Ideal S50000x138 .f32) (W : FVec Ideal S138x1024 .f32) (i : S50000x1024.Idx) :
    Host.dotGeneral dot_S50000x138_S138x1024_S50000x1024_1_0_0_1_n_n none X W i
      = ∑ k : Fin 138, X (ix2 (Cert.Spec.rowOf i) k) * W (ix2 k (Cert.Spec.colOf i)) := by
  simp only [Host.dotGeneral]
  rw [Ideal.dotGeneral_apply, ← Equiv.sum_comp (ValueIdx.contrEquiv1 dot_S50000x138_S138x1024_S50000x1024_1_0_0_1_n_n 138 rfl rfl).symm]
  refine Finset.sum_congr rfl fun k _ => ?_
  have hk := ValueIdx.contrEquiv1_symm_val dot_S50000x138_S138x1024_S50000x1024_1_0_0_1_n_n 138 rfl rfl k
  have el : dot_S50000x138_S138x1024_S50000x1024_1_0_0_1_n_n.lhsIdx i ((ValueIdx.contrEquiv1 dot_S50000x138_S138x1024_S50000x1024_1_0_0_1_n_n 138 rfl rfl).symm k) = ix2 (Cert.Spec.rowOf i) k := funext fun a => Fin.ext (by
    match a with
    | ⟨0, _⟩ => exact Read.lhs_main_v87_0 _ _
    | ⟨1, _⟩ => exact (Read.lhs_main_v87_1 _ _).trans hk)
  have er : dot_S50000x138_S138x1024_S50000x1024_1_0_0_1_n_n.rhsIdx i ((ValueIdx.contrEquiv1 dot_S50000x138_S138x1024_S50000x1024_1_0_0_1_n_n 138 rfl rfl).symm k) = ix2 k (Cert.Spec.colOf i) := funext fun a => Fin.ext (by
    match a with
    | ⟨0, _⟩ => exact (Read.rhs_main_v87_0 _ _).trans hk
    | ⟨1, _⟩ => exact Read.rhs_main_v87_1 _ _)
  rw [el, er]

/-- Entry i of the 50000×1024 by 1024×1 host matrix product: the sum over the 1024 inner positions of X(row i, k) · W(k, col i). -/
theorem dot3_apply (X : FVec Ideal S50000x1024 .f32) (W : FVec Ideal S1024x1 .f32) (i : S50000x1.Idx) :
    Host.dotGeneral dot_S50000x1024_S1024x1_S50000x1_1_0_0_1_n_n none X W i
      = ∑ k : Fin 1024, X (ix2 (Cert.Spec.rowOf i) k) * W (ix2 k (Cert.Spec.colOf i)) := by
  simp only [Host.dotGeneral]
  rw [Ideal.dotGeneral_apply, ← Equiv.sum_comp (ValueIdx.contrEquiv1 dot_S50000x1024_S1024x1_S50000x1_1_0_0_1_n_n 1024 rfl rfl).symm]
  refine Finset.sum_congr rfl fun k _ => ?_
  have hk := ValueIdx.contrEquiv1_symm_val dot_S50000x1024_S1024x1_S50000x1_1_0_0_1_n_n 1024 rfl rfl k
  have el : dot_S50000x1024_S1024x1_S50000x1_1_0_0_1_n_n.lhsIdx i ((ValueIdx.contrEquiv1 dot_S50000x1024_S1024x1_S50000x1_1_0_0_1_n_n 1024 rfl rfl).symm k) = ix2 (Cert.Spec.rowOf i) k := funext fun a => Fin.ext (by
    match a with
    | ⟨0, _⟩ => exact Read.lhs_main_v92_0 _ _
    | ⟨1, _⟩ => exact (Read.lhs_main_v92_1 _ _).trans hk)
  have er : dot_S50000x1024_S1024x1_S50000x1_1_0_0_1_n_n.rhsIdx i ((ValueIdx.contrEquiv1 dot_S50000x1024_S1024x1_S50000x1_1_0_0_1_n_n 1024 rfl rfl).symm k) = ix2 k (Cert.Spec.colOf i) := funext fun a => Fin.ext (by
    match a with
    | ⟨0, _⟩ => exact (Read.rhs_main_v92_0 _ _).trans hk
    | ⟨1, _⟩ => exact Read.rhs_main_v92_1 _ _)
  rw [el, er]

/-! ## The constants -/

/-- The single-precision pattern 0x3F800000 is the number one: sign 0, exponent field 127 (the bias), fraction 0. -/
theorem ofBits_one_f32 : Ideal.ofBits .f32 0x3F800000#32 = 1 := by
  simp [Ideal.ofBits, Ideal.ieee, -EReal.coe_mul]; norm_num

/-! ## The layers -/

/-- Layer 0: the product alone; with a zero bias row and the identity it is the shared formula. -/
theorem layer0 (X : FVec Ideal S50000x10 .f32) (W : FVec Ideal S10x128 .f32) (B : (⟨2, ![1, 128]⟩ : Shape).Idx → EReal) (hB : ∀ j, B j = 0) :
    Host.dotGeneral dot_S50000x10_S10x128_S50000x128_1_0_0_1_n_n none X W = Cert.Spec.dense id 50000 10 128 X W B := by
  funext i
  rw [Cert.Spec.dense_apply, dot0_apply, hB, add_zero]
  rfl

/-- Layer 1: likewise, 128 inner positions. -/
theorem layer1 (X : FVec Ideal S50000x128 .f32) (W : FVec Ideal S128x128 .f32) (B : (⟨2, ![1, 128]⟩ : Shape).Idx → EReal) (hB : ∀ j, B j = 0) :
    Host.dotGeneral dot_S50000x128_S128x128_S50000x128_1_0_0_1_n_n none X W = Cert.Spec.dense id 50000 128 128 X W B := by
  funext i
  rw [Cert.Spec.dense_apply, dot1_apply, hB, add_zero]
  rfl

/-! ## The bias rows, broadcast down the rows -/

/-- The 1024-vector b, made a 1 × 1024 row and repeated down 50000 rows: entry (r, q) is b(q). -/
theorem bias2_apply (b : FVec Ideal S1024 .f32) (i : S50000x1024.Idx) :
    broadcastInDim S50000x1024 ![0, 1] bcast_S1x1024_S50000x1024_0_1 (broadcastInDim S1x1024 ![1] bcast_S1024_S1x1024_1 b) i
      = b (ix1 (Cert.Spec.colOf i)) := by
  rw [broadcastInDim_apply _ bcast_S1x1024_S50000x1024_0_1 _ i (ix2 (0 : Fin 1) (Cert.Spec.colOf i)) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])]
  exact broadcastInDim_apply _ bcast_S1024_S1x1024_1 b _ (ix1 (Cert.Spec.colOf i)) (fun a => match a with
    | ⟨0, _⟩ => by show (i 1).val = if (1024 : Nat) = 1 then 0 else (i 1).val; rw [if_neg (by decide)])

/-- The 1-vector b, made a 1 × 1 array and repeated down 50000 rows: every entry is b(0), which is b at the entry's column. -/
theorem bias3_apply (b : FVec Ideal S1 .f32) (i : S50000x1.Idx) :
    broadcastInDim S50000x1 ![0, 1] bcast_S1x1_S50000x1_0_1 (broadcastInDim S1x1 ![1] bcast_S1_S1x1_1 b) i
      = b (ix1 (Cert.Spec.colOf i)) := by
  have h1 : (i 1).val = 0 := by have := idx2_lt1 i; omega
  rw [broadcastInDim_apply _ bcast_S1x1_S50000x1_0_1 _ i (ix2 (0 : Fin 1) (Cert.Spec.colOf i)) (fun a => match a with
    | ⟨0, _⟩ => by show 0 = if (1 : Nat) = 1 then 0 else (i 0).val; rw [if_pos rfl]
    | ⟨1, _⟩ => by show (i 1).val = if (1 : Nat) = 1 then 0 else (i 1).val; rw [if_pos rfl]; exact h1)]
  exact broadcastInDim_apply _ bcast_S1_S1x1_1 b _ (ix1 (Cert.Spec.colOf i)) (fun a => match a with
    | ⟨0, _⟩ => by show (i 1).val = if (1 : Nat) = 1 then 0 else (i 1).val; rw [if_pos rfl]; exact h1)

/-- Layer 2: product, bias row, then max with the zero splat: the shared formula under the rectifier. -/
theorem layer2 (X : FVec Ideal S50000x138 .f32) (W : FVec Ideal S138x1024 .f32) (b : FVec Ideal S1024 .f32) (B : (⟨2, ![1, 1024]⟩ : Shape).Idx → EReal) (hB : ∀ q : Fin 1024, B (ix2 (0 : Fin 1) q) = b (ix1 q)) :
    maximumf (addf (Host.dotGeneral dot_S50000x138_S138x1024_S50000x1024_1_0_0_1_n_n none X W) (broadcastInDim S50000x1024 ![0, 1] bcast_S1x1024_S50000x1024_0_1 (broadcastInDim S1x1024 ![1] bcast_S1024_S1x1024_1 b))) (broadcastInDim S50000x1024 ![] bcast_S_S50000x1024 (constant (F := Ideal) S_ .f32 0x00000000#32))
      = Cert.Spec.dense Cert.Spec.relu 50000 138 1024 X W B := by
  funext i
  rw [Cert.Spec.dense_apply, hB]
  show max (Host.dotGeneral dot_S50000x138_S138x1024_S50000x1024_1_0_0_1_n_n none X W i + broadcastInDim S50000x1024 ![0, 1] bcast_S1x1024_S50000x1024_0_1 (broadcastInDim S1x1024 ![1] bcast_S1024_S1x1024_1 b) i) (Ideal.ofBits .f32 0x00000000#32) = _
  rw [dot2_apply, bias2_apply, Ideal.ofBits_zero_f32]

/-- Layer 3: product, bias, then 1 / (1 + e^(-x)) spelt with negate, exponential, add and divide: the logistic function. -/
theorem layer3 (X : FVec Ideal S50000x1024 .f32) (W : FVec Ideal S1024x1 .f32) (b : FVec Ideal S1 .f32) (B : (⟨2, ![1, 1]⟩ : Shape).Idx → EReal) (hB : ∀ q : Fin 1, B (ix2 (0 : Fin 1) q) = b (ix1 q)) :
    Host.divf (broadcastInDim S50000x1 ![] bcast_S_S50000x1 (constant (F := Ideal) S_ .f32 0x3F800000#32)) (addf (broadcastInDim S50000x1 ![] bcast_S_S50000x1 (constant (F := Ideal) S_ .f32 0x3F800000#32)) (Host.exp (Host.negf (addf (Host.dotGeneral dot_S50000x1024_S1024x1_S50000x1_1_0_0_1_n_n none X W) (broadcastInDim S50000x1 ![0, 1] bcast_S1x1_S50000x1_0_1 (broadcastInDim S1x1 ![1] bcast_S1_S1x1_1 b))))))
      = Cert.Spec.dense Ideal.logistic 50000 1024 1 X W B := by
  funext i
  rw [Cert.Spec.dense_apply, hB]
  show Ideal.div (Ideal.ofBits .f32 0x3F800000#32) (Ideal.ofBits .f32 0x3F800000#32 + Ideal.exp (-(Host.dotGeneral dot_S50000x1024_S1024x1_S50000x1_1_0_0_1_n_n none X W i + broadcastInDim S50000x1 ![0, 1] bcast_S1x1_S50000x1_0_1 (broadcastInDim S1x1 ![1] bcast_S1_S1x1_1 b) i))) = _
  rw [dot3_apply, bias3_apply, ofBits_one_f32]
  rfl

end Cert.ReferenceIdeal.Layers

end
-- ==== Proof.Bridge.lean ====
/-
  The two programs compute one function. The reference's result is read stage by stage (each host operation's value as a
  function of the arguments): its index preparation, degree normalisation and propagation steps are the same host
  operations as the tiled program's, composed; each of its four matrix products, with the bias and activation that follow,
  is the shared dense-layer formula entry by entry; and the tiled program's casts to the layers' input format are the
  identity at the ideal values. The bias rows agree entry by entry: a vector reshaped to one row reads its own entries.
-/
import proofs.«124041_j47579647705688_1_alg».proof.Proof.RefLayers
import proofs.«124041_j47579647705688_1_alg».proof.Proof.KValueA
import Idealize.ShloMosaic.Lib.ValueLayout
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open Cert.KernelIdeal.Shared

/-- The zero bias row is zero at every entry. -/
theorem Z_zero (j : (⟨2, ![1, 128]⟩ : Shape).Idx) : Cert.KernelIdeal.KV.Z j = 0 := by
  show Ideal.ofBits .f32 0x00000000#32 = 0
  exact Ideal.ofBits_zero_f32

/-! ## The graph part: the same host operations on both sides -/

theorem src_eq (x9 : (⟨Cert.ReferenceIdeal.S2x600000, .i32⟩ : BufTy).Contents (Elt Ideal)) : Cert.ReferenceIdeal.Read.val_main_v6 (F := Ideal) x9 = srcT x9 := rfl
theorem dst_eq (x9 : (⟨Cert.ReferenceIdeal.S2x600000, .i32⟩ : BufTy).Contents (Elt Ideal)) : Cert.ReferenceIdeal.Read.val_main_v7 (F := Ideal) x9 = dstT x9 := rfl
theorem src_eq' (x9 : (⟨Cert.ReferenceIdeal.S2x600000, .i32⟩ : BufTy).Contents (Elt Ideal)) : Cert.ReferenceIdeal.Read.val_main_v47 (F := Ideal) x9 = srcT x9 := rfl
theorem dst_eq' (x9 : (⟨Cert.ReferenceIdeal.S2x600000, .i32⟩ : BufTy).Contents (Elt Ideal)) : Cert.ReferenceIdeal.Read.val_main_v48 (F := Ideal) x9 = dstT x9 := rfl
theorem wsrc17 (x9 : (⟨Cert.ReferenceIdeal.S2x600000, .i32⟩ : BufTy).Contents (Elt Ideal)) : Cert.ReferenceIdeal.Read.val_main_v17 (F := Ideal) x9 = wrapT (srcT x9) := rfl
theorem wdst24 (x9 : (⟨Cert.ReferenceIdeal.S2x600000, .i32⟩ : BufTy).Contents (Elt Ideal)) : Cert.ReferenceIdeal.Read.val_main_v24 (F := Ideal) x9 = wrapT (dstT x9) := rfl
theorem wsrc32 (x9 : (⟨Cert.ReferenceIdeal.S2x600000, .i32⟩ : BufTy).Contents (Elt Ideal)) : Cert.ReferenceIdeal.Read.val_main_v32 (F := Ideal) x9 = wrapT (srcT x9) := rfl
theorem wsrc58 (x9 : (⟨Cert.ReferenceIdeal.S2x600000, .i32⟩ : BufTy).Contents (Elt Ideal)) : Cert.ReferenceIdeal.Read.val_main_v58 (F := Ideal) x9 = wrapT (srcT x9) := rfl
theorem wdst65 (x9 : (⟨Cert.ReferenceIdeal.S2x600000, .i32⟩ : BufTy).Contents (Elt Ideal)) : Cert.ReferenceIdeal.Read.val_main_v65 (F := Ideal) x9 = wrapT (dstT x9) := rfl
theorem wsrc73 (x9 : (⟨Cert.ReferenceIdeal.S2x600000, .i32⟩ : BufTy).Contents (Elt Ideal)) : Cert.ReferenceIdeal.Read.val_main_v73 (F := Ideal) x9 = wrapT (srcT x9) := rfl
theorem dinv12 (x9 : (⟨Cert.ReferenceIdeal.S2x600000, .i32⟩ : BufTy).Contents (Elt Ideal)) : Cert.ReferenceIdeal.Read.val_main_v12 (F := Ideal) x9 = dinvT (F := Ideal) x9 := rfl
theorem dinv53 (x9 : (⟨Cert.ReferenceIdeal.S2x600000, .i32⟩ : BufTy).Contents (Elt Ideal)) : Cert.ReferenceIdeal.Read.val_main_v53 (F := Ideal) x9 = dinvT (F := Ideal) x9 := rfl
theorem norm27 (x9 : (⟨Cert.ReferenceIdeal.S2x600000, .i32⟩ : BufTy).Contents (Elt Ideal)) : Cert.ReferenceIdeal.Read.val_main_v27 (F := Ideal) x9 = normT (F := Ideal) x9 := by
  unfold Cert.ReferenceIdeal.Read.val_main_v27 Cert.ReferenceIdeal.Read.val_main_v19 Cert.ReferenceIdeal.Read.val_main_v26 Cert.ReferenceIdeal.Read.val_main_v18 Cert.ReferenceIdeal.Read.val_main_v25
  rw [dinv12, wsrc17, wdst24]
  rfl
theorem norm68 (x9 : (⟨Cert.ReferenceIdeal.S2x600000, .i32⟩ : BufTy).Contents (Elt Ideal)) : Cert.ReferenceIdeal.Read.val_main_v68 (F := Ideal) x9 = normT (F := Ideal) x9 := by
  unfold Cert.ReferenceIdeal.Read.val_main_v68 Cert.ReferenceIdeal.Read.val_main_v60 Cert.ReferenceIdeal.Read.val_main_v67 Cert.ReferenceIdeal.Read.val_main_v59 Cert.ReferenceIdeal.Read.val_main_v66
  rw [dinv53, wsrc58, wdst65]
  rfl

/-- The reference's first propagation step is the shared one, of its own first matrix product. -/
theorem agg44 (x0 : (⟨Cert.ReferenceIdeal.S50000x10, .f32⟩ : BufTy).Contents (Elt Ideal)) (x1 : (⟨Cert.ReferenceIdeal.S10x128, .f32⟩ : BufTy).Contents (Elt Ideal)) (x2 : (⟨Cert.ReferenceIdeal.S128, .f32⟩ : BufTy).Contents (Elt Ideal)) (x9 : (⟨Cert.ReferenceIdeal.S2x600000, .i32⟩ : BufTy).Contents (Elt Ideal)) : Cert.ReferenceIdeal.Read.val_main_v44 (F := Ideal) x0 x1 x2 x9 = aggT (F := Ideal) x9 (Cert.ReferenceIdeal.Read.val_main_v4 (F := Ideal) x0 x1) x2 := by
  unfold Cert.ReferenceIdeal.Read.val_main_v44 Cert.ReferenceIdeal.Read.val_main_v43 Cert.ReferenceIdeal.Read.val_main_v40 Cert.ReferenceIdeal.Read.val_main_v37 Cert.ReferenceIdeal.Read.val_main_v34 Cert.ReferenceIdeal.Read.val_main_v36 Cert.ReferenceIdeal.Read.val_main_v35 Cert.ReferenceIdeal.Read.val_main_v39 Cert.ReferenceIdeal.Read.val_main_v33
  rw [dst_eq, wsrc32, norm27]
  rfl
/-- The reference's second propagation step is the shared one, of its own second matrix product. -/
theorem agg85 (x0 : (⟨Cert.ReferenceIdeal.S50000x10, .f32⟩ : BufTy).Contents (Elt Ideal)) (x1 : (⟨Cert.ReferenceIdeal.S10x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x9 : (⟨Cert.ReferenceIdeal.S2x600000, .i32⟩ : BufTy).Contents (Elt Ideal)) : Cert.ReferenceIdeal.Read.val_main_v85 (F := Ideal) x0 x1 x2 x3 x4 x9 = aggT (F := Ideal) x9 (Cert.ReferenceIdeal.Read.val_main_v45 (F := Ideal) x0 x1 x2 x3 x9) x4 := by
  unfold Cert.ReferenceIdeal.Read.val_main_v85 Cert.ReferenceIdeal.Read.val_main_v84 Cert.ReferenceIdeal.Read.val_main_v81 Cert.ReferenceIdeal.Read.val_main_v78 Cert.ReferenceIdeal.Read.val_main_v75 Cert.ReferenceIdeal.Read.val_main_v77 Cert.ReferenceIdeal.Read.val_main_v76 Cert.ReferenceIdeal.Read.val_main_v80 Cert.ReferenceIdeal.Read.val_main_v74
  rw [dst_eq', wsrc73, norm68]
  rfl

/-! ## The four layers -/

theorem lay4 (x0 : (⟨Cert.ReferenceIdeal.S50000x10, .f32⟩ : BufTy).Contents (Elt Ideal)) (x1 : (⟨Cert.ReferenceIdeal.S10x128, .f32⟩ : BufTy).Contents (Elt Ideal)) : Cert.ReferenceIdeal.Read.val_main_v4 (F := Ideal) x0 x1 = Cert.Spec.dense id 50000 10 128 x0 x1 Cert.KernelIdeal.KV.Z := by
  unfold Cert.ReferenceIdeal.Read.val_main_v4
  exact Cert.ReferenceIdeal.Layers.layer0 _ _ _ Z_zero
theorem lay45 (x0 : (⟨Cert.ReferenceIdeal.S50000x10, .f32⟩ : BufTy).Contents (Elt Ideal)) (x1 : (⟨Cert.ReferenceIdeal.S10x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x9 : (⟨Cert.ReferenceIdeal.S2x600000, .i32⟩ : BufTy).Contents (Elt Ideal)) : Cert.ReferenceIdeal.Read.val_main_v45 (F := Ideal) x0 x1 x2 x3 x9 = Cert.Spec.dense id 50000 128 128 (Cert.ReferenceIdeal.Read.val_main_v44 (F := Ideal) x0 x1 x2 x9) x3 Cert.KernelIdeal.KV.Z := by
  unfold Cert.ReferenceIdeal.Read.val_main_v45
  exact Cert.ReferenceIdeal.Layers.layer1 _ _ _ Z_zero
theorem lay91 (x0 : (⟨Cert.ReferenceIdeal.S50000x10, .f32⟩ : BufTy).Contents (Elt Ideal)) (x1 : (⟨Cert.ReferenceIdeal.S10x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S138x1024, .f32⟩ : BufTy).Contents (Elt Ideal)) (x6 : (⟨Cert.ReferenceIdeal.S1024, .f32⟩ : BufTy).Contents (Elt Ideal)) (x9 : (⟨Cert.ReferenceIdeal.S2x600000, .i32⟩ : BufTy).Contents (Elt Ideal)) : Cert.ReferenceIdeal.Read.val_main_v91 (F := Ideal) x0 x1 x2 x3 x4 x5 x6 x9
    = Cert.Spec.dense Cert.Spec.relu 50000 138 1024 (Cert.ReferenceIdeal.Read.val_main_v86 (F := Ideal) x0 x1 x2 x3 x4 x9) x5 (shapeCast Cert.KernelIdeal.S1x1024 x6 Cert.KernelIdeal.Gen.shapeCasts_S1024_S1x1024) := by
  unfold Cert.ReferenceIdeal.Read.val_main_v91 Cert.ReferenceIdeal.Read.val_main_v90 Cert.ReferenceIdeal.Read.val_main_v87 Cert.ReferenceIdeal.Read.val_main_v89 Cert.ReferenceIdeal.Read.val_main_v88 Cert.ReferenceIdeal.Read.val_main_call2_v0 Cert.ReferenceIdeal.Read.val_main_call2_cst
  exact Cert.ReferenceIdeal.Layers.layer2 _ _ _ _ (fun q => shapeCast_a_1a_apply _ _ 0 q)
theorem lay101 (x0 : (⟨Cert.ReferenceIdeal.S50000x10, .f32⟩ : BufTy).Contents (Elt Ideal)) (x1 : (⟨Cert.ReferenceIdeal.S10x128, .f32⟩ : BufTy).Contents (Elt Ideal)) (x2 : (⟨Cert.ReferenceIdeal.S128, .f32⟩ : BufTy).Contents (Elt Ideal)) (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S138x1024, .f32⟩ : BufTy).Contents (Elt Ideal)) (x6 : (⟨Cert.ReferenceIdeal.S1024, .f32⟩ : BufTy).Contents (Elt Ideal)) (x7 : (⟨Cert.ReferenceIdeal.S1024x1, .f32⟩ : BufTy).Contents (Elt Ideal)) (x8 : (⟨Cert.ReferenceIdeal.S1, .f32⟩ : BufTy).Contents (Elt Ideal)) (x9 : (⟨Cert.ReferenceIdeal.S2x600000, .i32⟩ : BufTy).Contents (Elt Ideal)) : Cert.ReferenceIdeal.Read.val_main_v101 (F := Ideal) x0 x1 x2 x3 x4 x5 x6 x7 x8 x9
    = Cert.Spec.dense Ideal.logistic 50000 1024 1 (Cert.ReferenceIdeal.Read.val_main_v91 (F := Ideal) x0 x1 x2 x3 x4 x5 x6 x9) x7 (shapeCast Cert.KernelIdeal.S1x1 x8 Cert.KernelIdeal.Gen.shapeCasts_S1_S1x1) := by
  unfold Cert.ReferenceIdeal.Read.val_main_v101 Cert.ReferenceIdeal.Read.val_main_v100 Cert.ReferenceIdeal.Read.val_main_v99 Cert.ReferenceIdeal.Read.val_main_v98 Cert.ReferenceIdeal.Read.val_main_v97 Cert.ReferenceIdeal.Read.val_main_v96 Cert.ReferenceIdeal.Read.val_main_v95 Cert.ReferenceIdeal.Read.val_main_v92 Cert.ReferenceIdeal.Read.val_main_v94 Cert.ReferenceIdeal.Read.val_main_v93 Cert.ReferenceIdeal.Read.val_main_cst_16 Cert.ReferenceIdeal.Read.val_main_cst_17
  exact Cert.ReferenceIdeal.Layers.layer3 _ _ _ _ (fun q => shapeCast_a_1a_apply _ _ 0 q)

/-! ## The results agree -/

theorem ref_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Value.res_main_v101 m' c = Cert.KernelIdeal.KV.k3 m c := by
  rw [Cert.ReferenceIdeal.Read.val_main_v101_eq, h0, h1, h2, h3, h4, h5, h6, h7, h8, h9]
  rw [lay101, lay91]
  unfold Cert.ReferenceIdeal.Read.val_main_v86
  rw [agg85, lay45, agg44, lay4]
  rfl

end Cert.Bridge

end
-- ==== Proof.lean ====
/-
  The certificate's claims. The network is a two-layer graph convolution, a concatenation with the input features, and a
  two-layer perceptron ending in the logistic function; the tiled program computes each of its four dense layers
  act (X · W + b) block of rows by block of rows and leaves the graph's propagation steps to the host, the reference does
  everything on the host. Over the extended reals both are the same function of the arguments: a matrix product into a zero
  accumulator, read entry by entry, is the plain sum of products whatever the tiling; the casts to the layers' input format
  are the identity; the logistic function is 1 / (1 + e^(-x)) by definition; and the propagation steps are the same host
  operations on both sides. No law of arithmetic that needs finiteness is used, so the precondition is never opened.
  The three frames are the generated ones (the reference's is its run with the result dropped); the idealization rewrote
  nothing, so there is nothing to preserve.
-/
import proofs.«124041_j47579647705688_1_alg».proof.Defs
import proofs.«124041_j47579647705688_1_alg».proof.Proof.Gen.Kernel
import proofs.«124041_j47579647705688_1_alg».proof.Proof.Gen.Kernel.Frame
import proofs.«124041_j47579647705688_1_alg».proof.Proof.Gen.KernelIdeal
import proofs.«124041_j47579647705688_1_alg».proof.Proof.Gen.KernelIdeal.Frame
import proofs.«124041_j47579647705688_1_alg».proof.Proof.Gen.ReferenceIdeal
import proofs.«124041_j47579647705688_1_alg».proof.Proof.Gen.ReferenceIdeal.Run
import proofs.«124041_j47579647705688_1_alg».proof.Proof.Gen.Pre_finite_inputs
import proofs.«124041_j47579647705688_1_alg».proof.Proof.KRun
import proofs.«124041_j47579647705688_1_alg».proof.Proof.KValueD
import proofs.«124041_j47579647705688_1_alg».proof.Proof.Region0
import proofs.«124041_j47579647705688_1_alg».proof.Proof.Region1
import proofs.«124041_j47579647705688_1_alg».proof.Proof.Region2
import proofs.«124041_j47579647705688_1_alg».proof.Proof.Region3
import proofs.«124041_j47579647705688_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the four nested dense layers of the arguments. -/
theorem algebraic : Cert.algebraic_KernelIdeal_ReferenceIdeal := by
  intro m ρ m' ρ' _ hagree
  refine ⟨fun c => Cert.KernelIdeal.KV.k3 m c, ?_, ?_⟩
  · exact (θ_run Cert.KernelIdeal.defs _ _).mono
      (fun r h c => ⟨(h c).1.trans (Cert.KernelIdeal.KV.W12_main_v78 m ρ Cert.KernelIdeal.Region0.arr Cert.KernelIdeal.Region1.arr
          Cert.KernelIdeal.Region2.arr Cert.KernelIdeal.Region3.arr c), (h c).2⟩)
      (Cert.KernelIdeal.ValueRun.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    exact Cert.Bridge.ref_eq m m' c h0 h1 h2 h3 h4 h5 h6 h7 h8 h9

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
